-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x896 : Shape := ⟨2, ![16384, 896]⟩
abbrev S16384x1 : Shape := ⟨2, ![16384, 1]⟩
abbrev S2688x896 : Shape := ⟨2, ![2688, 896]⟩
abbrev S1344x2 : Shape := ⟨2, ![1344, 2]⟩
abbrev S1344x3 : Shape := ⟨2, ![1344, 3]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896 : Shape := ⟨1, ![896]⟩
abbrev S_ : Shape := ⟨0, ![]⟩

class Facts : Prop where
  bcast_S_S16384x896 : S_.BroadcastsInDim S16384x896 (![] : Fin 0 → Fin S16384x896.rank)
  reducesTo_S16384x896_S_d0_1 : S16384x896.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S2688x896 : S_.BroadcastsInDim S2688x896 (![] : Fin 0 → Fin S2688x896.rank)
  reducesTo_S2688x896_S_d0_1 : S2688x896.ReducesTo [0, 1] S_
  bcast_S_S1344x2 : S_.BroadcastsInDim S1344x2 (![] : Fin 0 → Fin S1344x2.rank)
  reducesTo_S1344x2_S_d0_1 : S1344x2.ReducesTo [0, 1] S_
  bcast_S_S1344x3 : S_.BroadcastsInDim S1344x3 (![] : Fin 0 → Fin S1344x3.rank)
  reducesTo_S1344x3_S_d0_1 : S1344x3.ReducesTo [0, 1] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S256x448 : S_.BroadcastsInDim S256x448 (![] : Fin 0 → Fin S256x448.rank)
  reducesTo_S256x448_S_d0_1 : S256x448.ReducesTo [0, 1] S_
  bcast_S_S256 : S_.BroadcastsInDim S256 (![] : Fin 0 → Fin S256.rank)
  reducesTo_S256_S_d0 : S256.ReducesTo [0] S_
  bcast_S_S896 : S_.BroadcastsInDim S896 (![] : Fin 0 → Fin S896.rank)
  reducesTo_S896_S_d0 : S896.ReducesTo [0] S_

variable [Facts]

def fn_part5 {F : FTy → Type} [FloatOps F] (main_v83 : IVec S_ 1) (main_v84 : FVec F S896 .f32) (main_cst_32 : FVec F S_ .f32) : IVec S_ 1 :=
  let main_v85 : FVec F S896 .f32 := broadcastInDim S896 ![] bcast_S_S896 main_cst_32
  let main_v86 : IVec S896 1 := cmpf .olt main_v84 main_v85
  let main_c_33 : IVec S_ 1 := constantI S_ 1 1#1
  let main_v87 : IVec S_ 1 := (fun x v => Host.reduce IntOp.andi x v reducesTo_S896_S_d0 h_S_) main_v86 main_c_33
  let main_v88 : IVec S_ 1 := andi main_v83 main_v87
  main_v88

def fn_part4 {F : FTy → Type} [FloatOps F] (main_arg14 : FVec F S256 .f32) (main_arg15 : FVec F S896 .f32) (main_arg16 : FVec F S896 .f32) (main_arg17 : FVec F S896 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S896 .f32 := Host.absf main_arg15
  let main_cst_28 : FVec F S_ .f32 := constant S_ .f32 0x7F800000#32
  let main_v75 : FVec F S896 .f32 := broadcastInDim S896 ![] bcast_S_S896 main_cst_28
  let main_v76 : IVec S896 1 := cmpf .olt main_v74 main_v75
  let main_c_29 : IVec S_ 1 := constantI S_ 1 1#1
  let main_v77 : IVec S_ 1 := (fun x v => Host.reduce IntOp.andi x v reducesTo_S896_S_d0 h_S_) main_v76 main_c_29
  let main_v78 : IVec S_ 1 := andi main_v73 main_v77
  let main_v79 : FVec F S896 .f32 := Host.absf main_arg16
  let main_cst_30 : FVec F S_ .f32 := constant S_ .f32 0x7F800000#32
  let main_v80 : FVec F S896 .f32 := broadcastInDim S896 ![] bcast_S_S896 main_cst_30
  let main_v81 : IVec S896 1 := cmpf .olt main_v79 main_v80
  let main_c_31 : IVec S_ 1 := constantI S_ 1 1#1
  let main_v82 : IVec S_ 1 := (fun x v => Host.reduce IntOp.andi x v reducesTo_S896_S_d0 h_S_) main_v81 main_c_31
  let main_v83 : IVec S_ 1 := andi main_v78 main_v82
  let main_v84 : FVec F S896 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256x448 .f32) (main_arg12 : FVec F S256 .f32) (main_arg13 : FVec F S256x448 .f32) (main_arg14 : FVec F S256 .f32) (main_arg15 : FVec F S896 .f32) (main_arg16 : FVec F S896 .f32) (main_arg17 : FVec F S896 .f32) (main_v48 : IVec S_ 1) (main_v49 : FVec F S448 .f32) (main_v50 : FVec F S448 .f32) : IVec S_ 1 :=
  let main_v51 : IVec S448 1 := cmpf .olt main_v49 main_v50
  let main_c_19 : IVec S_ 1 := constantI S_ 1 1#1
  let main_v52 : IVec S_ 1 := (fun x v => Host.reduce IntOp.andi x v reducesTo_S448_S_d0 h_S_) main_v51 main_c_19
  let main_v53 : IVec S_ 1 := andi main_v48 main_v52
  let main_v54 : FVec F S256x448 .f32 := Host.absf main_arg11
  let main_cst_20 : FVec F S_ .f32 := constant S_ .f32 0x7F800000#32
  let main_v55 : FVec F S256x448 .f32 := broadcastInDim S256x448 ![] bcast_S_S256x448 main_cst_20
  let main_v56 : IVec S256x448 1 := cmpf .olt main_v54 main_v55
  let main_c_21 : IVec S_ 1 := constantI S_ 1 1#1
  let main_v57 : IVec S_ 1 := (fun x v => Host.reduce IntOp.andi x v reducesTo_S256x448_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x448 .f32 := Host.absf main_arg13
  let main_cst_24 : FVec F S_ .f32 := constant S_ .f32 0x7F800000#32
  let main_v65 : FVec F S256x448 .f32 := broadcastInDim S256x448 ![] bcast_S_S256x448 main_cst_24
  let main_v66 : IVec S256x448 1 := cmpf .olt main_v64 main_v65
  let main_c_25 : IVec S_ 1 := constantI S_ 1 1#1
  let main_v67 : IVec S_ 1 := (fun x v => Host.reduce IntOp.andi x v reducesTo_S256x448_S_d0_1 h_S_) main_v66 main_c_25
  fn_part4 (F := F) main_arg14 main_arg15 main_arg16 main_arg17 main_v63 main_v67

def fn_part2 {F : FTy → Type} [FloatOps F] (main_arg7 : FVec F S448x448 .f32) (main_arg8 : FVec F S448 .f32) (main_arg9 : FVec F S448x448 .f32) (main_arg10 : FVec F S448 .f32) (main_arg11 : FVec F S256x448 .f32) (main_arg12 : FVec F S256 .f32) (main_arg13 : FVec F S256x448 .f32) (main_arg14 : FVec F S256 .f32) (main_arg15 : FVec F S896 .f32) (main_arg16 : FVec F S896 .f32) (main_arg17 : FVec F S896 .f32) (main_v33 : IVec S_ 1) : IVec S_ 1 :=
  let main_v34 : FVec F S448x448 .f32 := Host.absf main_arg7
  let main_cst_12 : FVec F S_ .f32 := constant S_ .f32 0x7F800000#32
  let main_v35 : FVec F S448x448 .f32 := broadcastInDim S448x448 ![] bcast_S_S448x448 main_cst_12
  let main_v36 : IVec S448x448 1 := cmpf .olt main_v34 main_v35
  let main_c_13 : IVec S_ 1 := constantI S_ 1 1#1
  let main_v37 : IVec S_ 1 := (fun x v => Host.reduce IntOp.andi x v reducesTo_S448x448_S_d0_1 h_S_) main_v36 main_c_13
  let main_v38 : IVec S_ 1 := andi main_v33 main_v37
  let main_v39 : FVec F S448 .f32 := Host.absf main_arg8
  let main_cst_14 : FVec F S_ .f32 := constant S_ .f32 0x7F800000#32
  let main_v40 : FVec F S448 .f32 := broadcastInDim S448 ![] bcast_S_S448 main_cst_14
  let main_v41 : IVec S448 1 := cmpf .olt main_v39 main_v40
  let main_c_15 : IVec S_ 1 := constantI S_ 1 1#1
  let main_v42 : IVec S_ 1 := (fun x v => Host.reduce IntOp.andi x v reducesTo_S448_S_d0 h_S_) main_v41 main_c_15
  let main_v43 : IVec S_ 1 := andi main_v38 main_v42
  let main_v44 : FVec F S448x448 .f32 := Host.absf main_arg9
  let main_cst_16 : FVec F S_ .f32 := constant S_ .f32 0x7F800000#32
  let main_v45 : FVec F S448x448 .f32 := broadcastInDim S448x448 ![] bcast_S_S448x448 main_cst_16
  let main_v46 : IVec S448x448 1 := cmpf .olt main_v44 main_v45
  let main_c_17 : IVec S_ 1 := constantI S_ 1 1#1
  let main_v47 : IVec S_ 1 := (fun x v => Host.reduce IntOp.andi x v reducesTo_S448x448_S_d0_1 h_S_) main_v46 main_c_17
  let main_v48 : IVec S_ 1 := andi main_v43 main_v47
  let main_v49 : FVec F S448 .f32 := Host.absf main_arg10
  let main_cst_18 : FVec F S_ .f32 := constant S_ .f32 0x7F800000#32
  let main_v50 : FVec F S448 .f32 := broadcastInDim S448 ![] bcast_S_S448 main_cst_18
  fn_part3 (F := F) main_arg11 main_arg12 main_arg13 main_arg14 main_arg15 main_arg16 main_arg17 main_v48 main_v49 main_v50

def fn_part1 {F : FTy → Type} [FloatOps F] (main_arg4 : FVec F S2688x896 .f32) (main_arg5 : FVec F S1344x2 .f32) (main_arg6 : FVec F S1344x3 .f32) (main_arg7 : FVec F S448x448 .f32) (main_arg8 : FVec F S448 .f32) (main_arg9 : FVec F S448x448 .f32) (main_arg10 : FVec F S448 .f32) (main_arg11 : FVec F S256x448 .f32) (main_arg12 : FVec F S256 .f32) (main_arg13 : FVec F S256x448 .f32) (main_arg14 : FVec F S256 .f32) (main_arg15 : FVec F S896 .f32) (main_arg16 : FVec F S896 .f32) (main_arg17 : FVec F S896 .f32) (main_v13 : IVec S_ 1) (main_v16 : IVec S16384x1 1) : IVec S_ 1 :=
  let main_c_5 : IVec S_ 1 := constantI S_ 1 1#1
  let main_v17 : IVec S_ 1 := (fun x v => Host.reduce IntOp.andi x v reducesTo_S16384x1_S_d0_1 h_S_) main_v16 main_c_5
  let main_v18 : IVec S_ 1 := andi main_v13 main_v17
  let main_v19 : FVec F S2688x896 .f32 := Host.absf main_arg4
  let main_cst_6 : FVec F S_ .f32 := constant S_ .f32 0x7F800000#32
  let main_v20 : FVec F S2688x896 .f32 := broadcastInDim S2688x896 ![] bcast_S_S2688x896 main_cst_6
  let main_v21 : IVec S2688x896 1 := cmpf .olt main_v19 main_v20
  let main_c_7 : IVec S_ 1 := constantI S_ 1 1#1
  let main_v22 : IVec S_ 1 := (fun x v => Host.reduce IntOp.andi x v reducesTo_S2688x896_S_d0_1 h_S_) main_v21 main_c_7
  let main_v23 : IVec S_ 1 := andi main_v18 main_v22
  let main_v24 : FVec F S1344x2 .f32 := Host.absf main_arg5
  let main_cst_8 : FVec F S_ .f32 := constant S_ .f32 0x7F800000#32
  let main_v25 : FVec F S1344x2 .f32 := broadcastInDim S1344x2 ![] bcast_S_S1344x2 main_cst_8
  let main_v26 : IVec S1344x2 1 := cmpf .olt main_v24 main_v25
  let main_c_9 : IVec S_ 1 := constantI S_ 1 1#1
  let main_v27 : IVec S_ 1 := (fun x v => Host.reduce IntOp.andi x v reducesTo_S1344x2_S_d0_1 h_S_) main_v26 main_c_9
  let main_v28 : IVec S_ 1 := andi main_v23 main_v27
  let main_v29 : FVec F S1344x3 .f32 := Host.absf main_arg6
  let main_cst_10 : FVec F S_ .f32 := constant S_ .f32 0x7F800000#32
  let main_v30 : FVec F S1344x3 .f32 := broadcastInDim S1344x3 ![] bcast_S_S1344x3 main_cst_10
  let main_v31 : IVec S1344x3 1 := cmpf .olt main_v29 main_v30
  let main_c_11 : IVec S_ 1 := constantI S_ 1 1#1
  let main_v32 : IVec S_ 1 := (fun x v => Host.reduce IntOp.andi x v reducesTo_S1344x3_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x896 .f32) (main_arg1 : FVec F S16384x1 .f32) (main_arg2 : FVec F S16384x1 .f32) (main_arg3 : FVec F S16384x1 .f32) (main_arg4 : FVec F S2688x896 .f32) (main_arg5 : FVec F S1344x2 .f32) (main_arg6 : FVec F S1344x3 .f32) (main_arg7 : FVec F S448x448 .f32) (main_arg8 : FVec F S448 .f32) (main_arg9 : FVec F S448x448 .f32) (main_arg10 : FVec F S448 .f32) (main_arg11 : FVec F S256x448 .f32) (main_arg12 : FVec F S256 .f32) (main_arg13 : FVec F S256x448 .f32) (main_arg14 : FVec F S256 .f32) (main_arg15 : FVec F S896 .f32) (main_arg16 : FVec F S896 .f32) (main_arg17 : FVec F S896 .f32) : IVec S_ 1 :=
  let main_v0 : FVec F S16384x896 .f32 := Host.absf main_arg0
  let main_cst : FVec F S_ .f32 := constant S_ .f32 0x7F800000#32
  let main_v1 : FVec F S16384x896 .f32 := broadcastInDim S16384x896 ![] bcast_S_S16384x896 main_cst
  let main_v2 : IVec S16384x896 1 := cmpf .olt main_v0 main_v1
  let main_c : IVec S_ 1 := constantI S_ 1 1#1
  let main_v3 : IVec S_ 1 := (fun x v => Host.reduce IntOp.andi x v reducesTo_S16384x896_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S16384x1 .f32 := Host.absf main_arg3
  let main_cst_4 : FVec F S_ .f32 := constant S_ .f32 0x7F800000#32
  let main_v15 : FVec F S16384x1 .f32 := broadcastInDim S16384x1 ![] bcast_S_S16384x1 main_cst_4
  let main_v16 : IVec S16384x1 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x896 : Shape := ⟨2, ![16384, 896]⟩
abbrev S16384x1 : Shape := ⟨2, ![16384, 1]⟩
abbrev S2688x896 : Shape := ⟨2, ![2688, 896]⟩
abbrev S1344x2 : Shape := ⟨2, ![1344, 2]⟩
abbrev S1344x3 : Shape := ⟨2, ![1344, 3]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896 : Shape := ⟨1, ![896]⟩
abbrev S896x2688 : Shape := ⟨2, ![896, 2688]⟩
abbrev S2x1344 : Shape := ⟨2, ![2, 1344]⟩
abbrev S3x1344 : Shape := ⟨2, ![3, 1344]⟩
abbrev S1x1344 : Shape := ⟨2, ![1, 1344]⟩
abbrev S448x256 : Shape := ⟨2, ![448, 256]⟩
abbrev S1x448 : Shape := ⟨2, ![1, 448]⟩
abbrev S1x256 : Shape := ⟨2, ![1, 256]⟩
abbrev S1x896 : Shape := ⟨2, ![1, 896]⟩
abbrev S16384x256 : Shape := ⟨2, ![16384, 256]⟩
abbrev S256x896 : Shape := ⟨2, ![256, 896]⟩
abbrev S256x1 : Shape := ⟨2, ![256, 1]⟩
abbrev S256x256 : Shape := ⟨2, ![256, 256]⟩
abbrev S256x2688 : Shape := ⟨2, ![256, 2688]⟩
abbrev S256x1344 : Shape := ⟨2, ![256, 1344]⟩

abbrev nBuf : Space → Nat
  | .hbm => 45
  | .vmem => 31
  | .smem => 0
  | _ => 0

abbrev bufTy : (tb : Table) → Fin (tcTables nBuf tb) → BufTy
  | .hbm, ⟨0, _⟩ => ⟨S16384x896, .f32⟩
  | .hbm, ⟨1, _⟩ => ⟨S16384x1, .f32⟩
  | .hbm, ⟨2, _⟩ => ⟨S16384x1, .f32⟩
  | .hbm, ⟨3, _⟩ => ⟨S16384x1, .f32⟩
  | .hbm, ⟨4, _⟩ => ⟨S2688x896, .f32⟩
  | .hbm, ⟨5, _⟩ => ⟨S1344x2, .f32⟩
  | .hbm, ⟨6, _⟩ => ⟨S1344x3, .f32⟩
  | .hbm, ⟨7, _⟩ => ⟨S448x448, .f32⟩
  | .hbm, ⟨8, _⟩ => ⟨S448, .f32⟩
  | .hbm, ⟨9, _⟩ => ⟨S448x448, .f32⟩
  | .hbm, ⟨10, _⟩ => ⟨S448, .f32⟩
  | .hbm, ⟨11, _⟩ => ⟨S256x448, .f32⟩
  | .hbm, ⟨12, _⟩ => ⟨S256, .f32⟩
  | .hbm, ⟨13, _⟩ => ⟨S256x448, .f32⟩
  | .hbm, ⟨14, _⟩ => ⟨S256, .f32⟩
  | .hbm, ⟨15, _⟩ => ⟨S896, .f32⟩
  | .hbm, ⟨16, _⟩ => ⟨S896, .f32⟩
  | .hbm, ⟨17, _⟩ => ⟨S896, .f32⟩
  | .hbm, ⟨18, _⟩ => ⟨S896x2688, .f32⟩
  | .hbm, ⟨19, _⟩ => ⟨S896x2688, .bf16⟩
  | .hbm, ⟨20, _⟩ => ⟨S2x1344, .f32⟩
  | .hbm, ⟨21, _⟩ => ⟨S3x1344, .f32⟩
  | .hbm, ⟨22, _⟩ => ⟨S1x1344, .f32⟩
  | .hbm, ⟨23, _⟩ => ⟨S1x1344, .f32⟩
  | .hbm, ⟨24, _⟩ => ⟨S1x1344, .f32⟩
  | .hbm, ⟨25, _⟩ => ⟨S1x1344, .f32⟩
  | .hbm, ⟨26, _⟩ => ⟨S1x1344, .f32⟩
  | .hbm, ⟨27, _⟩ => ⟨S448x448, .f32⟩
  | .hbm, ⟨28, _⟩ => ⟨S448x448, .bf16⟩
  | .hbm, ⟨29, _⟩ => ⟨S448x448, .f32⟩
  | .hbm, ⟨30, _⟩ => ⟨S448x448, .bf16⟩
  | .hbm, ⟨31, _⟩ => ⟨S448x256, .f32⟩
  | .hbm, ⟨32, _⟩ => ⟨S448x256, .bf16⟩
  | .hbm, ⟨33, _⟩ => ⟨S448x256, .f32⟩
  | .hbm, ⟨34, _⟩ => ⟨S448x256, .bf16⟩
  | .hbm, ⟨35, _⟩ => ⟨S1x448, .f32⟩
  | .hbm, ⟨36, _⟩ => ⟨S1x448, .f32⟩
  | .hbm, ⟨37, _⟩ => ⟨S1x256, .f32⟩
  | .hbm, ⟨38, _⟩ => ⟨S1x256, .f32⟩
  | .hbm, ⟨39, _⟩ => ⟨S1x896, .f32⟩
  | .hbm, ⟨40, _⟩ => ⟨S1x896, .f32⟩
  | .hbm, ⟨41, _⟩ => ⟨S1x896, .f32⟩
  | .hbm, ⟨42, _⟩ => ⟨S16384x896, .f32⟩
  | .hbm, ⟨43, _⟩ => ⟨S16384x256, .f32⟩
  | .hbm, ⟨44, _⟩ => ⟨S16384x256, .f32⟩
  | .local _ .vmem, ⟨0, _⟩ => ⟨S256x896, .f32⟩
  | .local _ .vmem, ⟨1, _⟩ => ⟨S256x896, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S896x2688, .bf16⟩
  | .local _ .vmem, ⟨9, _⟩ => ⟨S1x1344, .f32⟩
  | .local _ .vmem, ⟨10, _⟩ => ⟨S1x1344, .f32⟩
  | .local _ .vmem, ⟨11, _⟩ => ⟨S1x1344, .f32⟩
  | .local _ .vmem, ⟨12, _⟩ => ⟨S1x1344, .f32⟩
  | .local _ .vmem, ⟨13, _⟩ => ⟨S1x1344, .f32⟩
  | .local _ .vmem, ⟨14, _⟩ => ⟨S448x448, .bf16⟩
  | .local _ .vmem, ⟨15, _⟩ => ⟨S1x448, .f32⟩
  | .local _ .vmem, ⟨16, _⟩ => ⟨S448x448, .bf16⟩
  | .local _ .vmem, ⟨17, _⟩ => ⟨S1x448, .f32⟩
  | .local _ .vmem, ⟨18, _⟩ => ⟨S448x256, .bf16⟩
  | .local _ .vmem, ⟨19, _⟩ => ⟨S1x256, .f32⟩
  | .local _ .vmem, ⟨20, _⟩ => ⟨S448x256, .bf16⟩
  | .local _ .vmem, ⟨21, _⟩ => ⟨S1x256, .f32⟩
  | .local _ .vmem, ⟨22, _⟩ => ⟨S1x896, .f32⟩
  | .local _ .vmem, ⟨23, _⟩ => ⟨S1x896, .f32⟩
  | .local _ .vmem, ⟨24, _⟩ => ⟨S1x896, .f32⟩
  | .local _ .vmem, ⟨25, _⟩ => ⟨S256x896, .f32⟩
  | .local _ .vmem, ⟨26, _⟩ => ⟨S256x896, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | _, _ => ⟨S16384x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S896x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1344 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1344 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1344 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1344 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1344 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S448x448 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x448 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S448x448 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x448 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S448x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S448x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x896 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x896 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x896 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x896 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  transposes_S2688x896_S896x2688_1_0 : S2688x896.Transposes [1, 0] S896x2688
  bitsLt_bf16_f32 : FTy.bits .bf16 < FTy.bits .f32
  transposes_S1344x2_S2x1344_1_0 : S1344x2.Transposes [1, 0] S2x1344
  transposes_S1344x3_S3x1344_1_0 : S1344x3.Transposes [1, 0] S3x1344
  slices_S2x1344_S1x1344_0_0 : S2x1344.Slices ![0, 0] S1x1344
  slices_S2x1344_S1x1344_1_0 : S2x1344.Slices ![1, 0] S1x1344
  slices_S3x1344_S1x1344_0_0 : S3x1344.Slices ![0, 0] S1x1344
  slices_S3x1344_S1x1344_1_0 : S3x1344.Slices ![1, 0] S1x1344
  slices_S3x1344_S1x1344_2_0 : S3x1344.Slices ![2, 0] S1x1344
  transposes_S448x448_S448x448_1_0 : S448x448.Transposes [1, 0] S448x448
  transposes_S256x448_S448x256_1_0 : S256x448.Transposes [1, 0] S448x256
  shapeCasts_S448_S1x448 : S448.ShapeCasts S1x448
  shapeCasts_S256_S1x256 : S256.ShapeCasts S1x256
  shapeCasts_S896_S1x896 : S896.ShapeCasts S1x896
  inb_S256x896_S256x896_0_0 : ∀ a, (![0, 0] : Fin 2 → Nat) a + S256x896.size a ≤ S256x896.size a
  h_S256x896 : 0 < S256x896.numel
  inb_S256x1_S256x1_0_0 : ∀ a, (![0, 0] : Fin 2 → Nat) a + S256x1.size a ≤ S256x1.size a
  h_S256x1 : 0 < S256x1.numel
  inb_S896x2688_S896x2688_0_0 : ∀ a, (![0, 0] : Fin 2 → Nat) a + S896x2688.size a ≤ S896x2688.size a
  h_S896x2688 : 0 < S896x2688.numel
  shapeCasts_S896x2688_S896x2688 : S896x2688.ShapeCasts S896x2688
  inb_S1x1344_S1x1344_0_0 : ∀ a, (![0, 0] : Fin 2 → Nat) a + S1x1344.size a ≤ S1x1344.size a
  h_S1x1344 : 0 < S1x1344.numel
  shapeCasts_S1x1344_S1x1344 : S1x1344.ShapeCasts S1x1344
  broadcasts_S256x1_S256x1344 : S256x1.Broadcasts S256x1344
  broadcasts_S1x1344_S256x1344 : S1x1344.Broadcasts S256x1344
  slices_S256x1344_o0_0_S256x448 : S256x1344.Slices ![0, 0] S256x448
  concatenates_S256x448_S256x448_S256x896_d1 : Shape.Concatenates [S256x448, S256x448] S256x896 1
  slices_S256x1344_o0_448_S256x448 : S256x1344.Slices ![0, 448] S256x448
  slices_S256x1344_o0_896_S256x448 : S256x1344.Slices ![0, 896] S256x448
  inb_S1x896_S1x896_0_0 : ∀ a, (![0, 0] : Fin 2 → Nat) a + S1x896.size a ≤ S1x896.size a
  h_S1x896 : 0 < S1x896.numel
  shapeCasts_S1x896_S1x896 : S1x896.ShapeCasts S1x896
  slices_S256x2688_o0_0_S256x896 : S256x2688.Slices ![0, 0] S256x896
  broadcasts_S1x896_S256x896 : S1x896.Broadcasts S256x896
  slices_S256x2688_o0_896_S256x896 : S256x2688.Slices ![0, 896] S256x896
  slices_S256x2688_o0_1792_S256x896 : S256x2688.Slices ![0, 1792] S256x896
  slices_S256x896_o0_0_S256x448 : S256x896.Slices ![0, 0] S256x448
  slices_S256x896_o0_448_S256x448 : S256x896.Slices ![0, 448] S256x448
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S256x448 : S1x448.Broadcasts S256x448
  inb_S448x256_S448x256_0_0 : ∀ a, (![0, 0] : Fin 2 → Nat) a + S448x256.size a ≤ S448x256.size a
  h_S448x256 : 0 < S448x256.numel
  shapeCasts_S448x256_S448x256 : S448x256.ShapeCasts S448x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x896_S896x2688_S256x2688_1_0_0_1_n_n_wf : DotDims.WF S256x896 S896x2688 S256x2688 [1] [0] [0] [1] [] []
  dot_S256x448_S448x448_S256x448_1_0_0_1_n_n_wf : DotDims.WF S256x448 S448x448 S256x448 [1] [0] [0] [1] [] []
  dot_S256x448_S448x256_S256x256_1_0_0_1_n_n_wf : DotDims.WF S256x448 S448x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x896.size a ≤ S16384x896.size a
  hwx0_0 : ∀ i : grid0.Coords, EltTy.bits .f32 = 32 ∨ (Rect.block (s := S16384x896) S256x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .f32 = 32 ∨ (Rect.block (s := S16384x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S896x2688.size a ≤ S896x2688.size a
  hwx0_4 : ∀ i : grid0.Coords, EltTy.bits .bf16 = 32 ∨ (Rect.block (s := S896x2688) S896x2688.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1344.size a ≤ S1x1344.size a
  hwx0_5 : ∀ i : grid0.Coords, EltTy.bits .f32 = 32 ∨ (Rect.block (s := S1x1344) S1x1344.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1344.size a ≤ S1x1344.size a
  hwx0_6 : ∀ i : grid0.Coords, EltTy.bits .f32 = 32 ∨ (Rect.block (s := S1x1344) S1x1344.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1344.size a ≤ S1x1344.size a
  hwx0_7 : ∀ i : grid0.Coords, EltTy.bits .f32 = 32 ∨ (Rect.block (s := S1x1344) S1x1344.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1344.size a ≤ S1x1344.size a
  hwx0_8 : ∀ i : grid0.Coords, EltTy.bits .f32 = 32 ∨ (Rect.block (s := S1x1344) S1x1344.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1344.size a ≤ S1x1344.size a
  hwx0_9 : ∀ i : grid0.Coords, EltTy.bits .f32 = 32 ∨ (Rect.block (s := S1x1344) S1x1344.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S448x448.size a ≤ S448x448.size a
  hwx0_10 : ∀ i : grid0.Coords, EltTy.bits .bf16 = 32 ∨ (Rect.block (s := S448x448) S448x448.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x448.size a ≤ S1x448.size a
  hwx0_11 : ∀ i : grid0.Coords, EltTy.bits .f32 = 32 ∨ (Rect.block (s := S1x448) S1x448.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S448x448.size a ≤ S448x448.size a
  hwx0_12 : ∀ i : grid0.Coords, EltTy.bits .bf16 = 32 ∨ (Rect.block (s := S448x448) S448x448.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x448.size a ≤ S1x448.size a
  hwx0_13 : ∀ i : grid0.Coords, EltTy.bits .f32 = 32 ∨ (Rect.block (s := S1x448) S1x448.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S448x256.size a ≤ S448x256.size a
  hwx0_14 : ∀ i : grid0.Coords, EltTy.bits .bf16 = 32 ∨ (Rect.block (s := S448x256) S448x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S448x256.size a ≤ S448x256.size a
  hwx0_16 : ∀ i : grid0.Coords, EltTy.bits .bf16 = 32 ∨ (Rect.block (s := S448x256) S448x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x896.size a ≤ S1x896.size a
  hwx0_18 : ∀ i : grid0.Coords, EltTy.bits .f32 = 32 ∨ (Rect.block (s := S1x896) S1x896.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x896.size a ≤ S1x896.size a
  hwx0_19 : ∀ i : grid0.Coords, EltTy.bits .f32 = 32 ∨ (Rect.block (s := S1x896) S1x896.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x896.size a ≤ S1x896.size a
  hwx0_20 : ∀ i : grid0.Coords, EltTy.bits .f32 = 32 ∨ (Rect.block (s := S1x896) S1x896.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S256x896.size a ≤ S16384x896.size a
  hwx0_21 : ∀ i : grid0.Coords, EltTy.bits .f32 = 32 ∨ (Rect.block (s := S16384x896) S256x896.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S256x256.size a ≤ S16384x256.size a
  hwx0_22 : ∀ i : grid0.Coords, EltTy.bits .f32 = 32 ∨ (Rect.block (s := S16384x256) S256x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S16384x256.size a
  hwx0_23 : ∀ i : grid0.Coords, EltTy.bits .f32 = 32 ∨ (Rect.block (s := S16384x256) S256x256.size (cc0_transform_23 i) (hinb0_23 i)).WholeWords (EltTy.packing .f32)

variable [Facts₀]

def dot_S256x896_S896x2688_S256x2688_1_0_0_1_n_n : DotDims S256x896 S896x2688 S256x2688 where
  lhsContracting := [1]
  rhsContracting := [0]
  lhsNonContracting := [0]
  rhsNonContracting := [1]
  lhsBatch := []
  rhsBatch := []
  wf := dot_S256x896_S896x2688_S256x2688_1_0_0_1_n_n_wf
def dot_S256x448_S448x448_S256x448_1_0_0_1_n_n : DotDims S256x448 S448x448 S256x448 where
  lhsContracting := [1]
  rhsContracting := [0]
  lhsNonContracting := [0]
  rhsNonContracting := [1]
  lhsBatch := []
  rhsBatch := []
  wf := dot_S256x448_S448x448_S256x448_1_0_0_1_n_n_wf
def dot_S256x448_S448x256_S256x256_1_0_0_1_n_n : DotDims S256x448 S448x256 S256x256 where
  lhsContracting := [1]
  rhsContracting := [0]
  lhsNonContracting := [0]
  rhsNonContracting := [1]
  lhsBatch := []
  rhsBatch := []
  wf := dot_S256x448_S448x256_S256x256_1_0_0_1_n_n_wf

abbrev win0_0 : Pipeline.Window sig grid0 :=
  Pipeline.Window.ofSpec (Memref.whole main_arg0) S256x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S896x2688.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1344.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1344.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1344.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1344.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x1344.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S448x448.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x448.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S448x448.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x448.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S448x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S448x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v20) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v21) S1x896.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v22) S1x896.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v23) S1x896.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v24_0) S256x896.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v24_1) S256x256.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v24_2) S256x256.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S16384x896 : Shape := ⟨2, ![16384, 896]⟩
abbrev S16384x1 : Shape := ⟨2, ![16384, 1]⟩
abbrev S2688x896 : Shape := ⟨2, ![2688, 896]⟩
abbrev S1344x2 : Shape := ⟨2, ![1344, 2]⟩
abbrev S1344x3 : Shape := ⟨2, ![1344, 3]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896 : Shape := ⟨1, ![896]⟩
abbrev S896x2688 : Shape := ⟨2, ![896, 2688]⟩
abbrev S16384x2688 : Shape := ⟨2, ![16384, 2688]⟩
abbrev S16384x2 : Shape := ⟨2, ![16384, 2]⟩
abbrev S2x1344 : Shape := ⟨2, ![2, 1344]⟩
abbrev S16384x1344 : Shape := ⟨2, ![16384, 1344]⟩
abbrev S16384x3 : Shape := ⟨2, ![16384, 3]⟩
abbrev S3x1344 : Shape := ⟨2, ![3, 1344]⟩
abbrev S16384x448 : Shape := ⟨2, ![16384, 448]⟩
abbrev S1x896 : Shape := ⟨2, ![1, 896]⟩
abbrev S_ : Shape := ⟨0, ![]⟩
abbrev S1x448 : Shape := ⟨2, ![1, 448]⟩
abbrev S448x256 : Shape := ⟨2, ![448, 256]⟩
abbrev S16384x256 : Shape := ⟨2, ![16384, 256]⟩
abbrev S1x256 : Shape := ⟨2, ![1, 256]⟩

abbrev nBuf : Space → Nat
  | .hbm => 102
  | .vmem => 0
  | .smem => 0
  | _ => 0

abbrev bufTy : (tb : Table) → Fin (tcTables nBuf tb) → BufTy
  | .hbm, ⟨0, _⟩ => ⟨S16384x896, .f32⟩
  | .hbm, ⟨1, _⟩ => ⟨S16384x1, .f32⟩
  | .hbm, ⟨2, _⟩ => ⟨S16384x1, .f32⟩
  | .hbm, ⟨3, _⟩ => ⟨S16384x1, .f32⟩
  | .hbm, ⟨4, _⟩ => ⟨S2688x896, .f32⟩
  | .hbm, ⟨5, _⟩ => ⟨S1344x2, .f32⟩
  | .hbm, ⟨6, _⟩ => ⟨S1344x3, .f32⟩
  | .hbm, ⟨7, _⟩ => ⟨S448x448, .f32⟩
  | .hbm, ⟨8, _⟩ => ⟨S448, .f32⟩
  | .hbm, ⟨9, _⟩ => ⟨S448x448, .f32⟩
  | .hbm, ⟨10, _⟩ => ⟨S448, .f32⟩
  | .hbm, ⟨11, _⟩ => ⟨S256x448, .f32⟩
  | .hbm, ⟨12, _⟩ => ⟨S256, .f32⟩
  | .hbm, ⟨13, _⟩ => ⟨S256x448, .f32⟩
  | .hbm, ⟨14, _⟩ => ⟨S256, .f32⟩
  | .hbm, ⟨15, _⟩ => ⟨S896, .f32⟩
  | .hbm, ⟨16, _⟩ => ⟨S896, .f32⟩
  | .hbm, ⟨17, _⟩ => ⟨S896, .f32⟩
  | .hbm, ⟨18, _⟩ => ⟨S896x2688, .f32⟩
  | .hbm, ⟨19, _⟩ => ⟨S16384x2688, .f32⟩
  | .hbm, ⟨20, _⟩ => ⟨S16384x2, .f32⟩
  | .hbm, ⟨21, _⟩ => ⟨S2x1344, .f32⟩
  | .hbm, ⟨22, _⟩ => ⟨S16384x1344, .f32⟩
  | .hbm, ⟨23, _⟩ => ⟨S16384x3, .f32⟩
  | .hbm, ⟨24, _⟩ => ⟨S3x1344, .f32⟩
  | .hbm, ⟨25, _⟩ => ⟨S16384x1344, .f32⟩
  | .hbm, ⟨26, _⟩ => ⟨S16384x448, .f32⟩
  | .hbm, ⟨27, _⟩ => ⟨S16384x448, .f32⟩
  | .hbm, ⟨28, _⟩ => ⟨S16384x896, .f32⟩
  | .hbm, ⟨29, _⟩ => ⟨S16384x448, .f32⟩
  | .hbm, ⟨30, _⟩ => ⟨S16384x448, .f32⟩
  | .hbm, ⟨31, _⟩ => ⟨S16384x896, .f32⟩
  | .hbm, ⟨32, _⟩ => ⟨S16384x448, .f32⟩
  | .hbm, ⟨33, _⟩ => ⟨S16384x448, .f32⟩
  | .hbm, ⟨34, _⟩ => ⟨S16384x896, .f32⟩
  | .hbm, ⟨35, _⟩ => ⟨S16384x896, .f32⟩
  | .hbm, ⟨36, _⟩ => ⟨S16384x896, .f32⟩
  | .hbm, ⟨37, _⟩ => ⟨S1x896, .f32⟩
  | .hbm, ⟨38, _⟩ => ⟨S16384x896, .f32⟩
  | .hbm, ⟨39, _⟩ => ⟨S16384x896, .f32⟩
  | .hbm, ⟨40, _⟩ => ⟨S16384x896, .f32⟩
  | .hbm, ⟨41, _⟩ => ⟨S16384x896, .f32⟩
  | .hbm, ⟨42, _⟩ => ⟨S_, .f32⟩
  | .hbm, ⟨43, _⟩ => ⟨S16384x896, .f32⟩
  | .hbm, ⟨44, _⟩ => ⟨S16384x896, .f32⟩
  | .hbm, ⟨45, _⟩ => ⟨S_, .f32⟩
  | .hbm, ⟨46, _⟩ => ⟨S16384x896, .f32⟩
  | .hbm, ⟨47, _⟩ => ⟨S16384x896, .f32⟩
  | .hbm, ⟨48, _⟩ => ⟨S16384x896, .f32⟩
  | .hbm, ⟨49, _⟩ => ⟨S16384x896, .f32⟩
  | .hbm, ⟨50, _⟩ => ⟨S1x896, .f32⟩
  | .hbm, ⟨51, _⟩ => ⟨S16384x896, .f32⟩
  | .hbm, ⟨52, _⟩ => ⟨S16384x896, .f32⟩
  | .hbm, ⟨53, _⟩ => ⟨S16384x896, .f32⟩
  | .hbm, ⟨54, _⟩ => ⟨S16384x896, .f32⟩
  | .hbm, ⟨55, _⟩ => ⟨S_, .f32⟩
  | .hbm, ⟨56, _⟩ => ⟨S16384x896, .f32⟩
  | .hbm, ⟨57, _⟩ => ⟨S16384x896, .f32⟩
  | .hbm, ⟨58, _⟩ => ⟨S_, .f32⟩
  | .hbm, ⟨59, _⟩ => ⟨S16384x896, .f32⟩
  | .hbm, ⟨60, _⟩ => ⟨S16384x896, .f32⟩
  | .hbm, ⟨61, _⟩ => ⟨S16384x896, .f32⟩
  | .hbm, ⟨62, _⟩ => ⟨S16384x896, .f32⟩
  | .hbm, ⟨63, _⟩ => ⟨S16384x896, .f32⟩
  | .hbm, ⟨64, _⟩ => ⟨S1x896, .f32⟩
  | .hbm, ⟨65, _⟩ => ⟨S16384x896, .f32⟩
  | .hbm, ⟨66, _⟩ => ⟨S16384x896, .f32⟩
  | .hbm, ⟨67, _⟩ => ⟨S16384x896, .f32⟩
  | .hbm, ⟨68, _⟩ => ⟨S16384x896, .f32⟩
  | .hbm, ⟨69, _⟩ => ⟨S_, .f32⟩
  | .hbm, ⟨70, _⟩ => ⟨S16384x896, .f32⟩
  | .hbm, ⟨71, _⟩ => ⟨S16384x896, .f32⟩
  | .hbm, ⟨72, _⟩ => ⟨S16384x896, .f32⟩
  | .hbm, ⟨73, _⟩ => ⟨S16384x896, .f32⟩
  | .hbm, ⟨74, _⟩ => ⟨S16384x448, .f32⟩
  | .hbm, ⟨75, _⟩ => ⟨S16384x448, .f32⟩
  | .hbm, ⟨76, _⟩ => ⟨S448x448, .f32⟩
  | .hbm, ⟨77, _⟩ => ⟨S16384x448, .f32⟩
  | .hbm, ⟨78, _⟩ => ⟨S1x448, .f32⟩
  | .hbm, ⟨79, _⟩ => ⟨S16384x448, .f32⟩
  | .hbm, ⟨80, _⟩ => ⟨S16384x448, .f32⟩
  | .hbm, ⟨81, _⟩ => ⟨S_, .f32⟩
  | .hbm, ⟨82, _⟩ => ⟨S16384x448, .f32⟩
  | .hbm, ⟨83, _⟩ => ⟨S16384x448, .f32⟩
  | .hbm, ⟨84, _⟩ => ⟨S448x256, .f32⟩
  | .hbm, ⟨85, _⟩ => ⟨S16384x256, .f32⟩
  | .hbm, ⟨86, _⟩ => ⟨S1x256, .f32⟩
  | .hbm, ⟨87, _⟩ => ⟨S16384x256, .f32⟩
  | .hbm, ⟨88, _⟩ => ⟨S16384x256, .f32⟩
  | .hbm, ⟨89, _⟩ => ⟨S448x448, .f32⟩
  | .hbm, ⟨90, _⟩ => ⟨S16384x448, .f32⟩
  | .hbm, ⟨91, _⟩ => ⟨S1x448, .f32⟩
  | .hbm, ⟨92, _⟩ => ⟨S16384x448, .f32⟩
  | .hbm, ⟨93, _⟩ => ⟨S16384x448, .f32⟩
  | .hbm, ⟨94, _⟩ => ⟨S_, .f32⟩
  | .hbm, ⟨95, _⟩ => ⟨S16384x448, .f32⟩
  | .hbm, ⟨96, _⟩ => ⟨S16384x448, .f32⟩
  | .hbm, ⟨97, _⟩ => ⟨S448x256, .f32⟩
  | .hbm, ⟨98, _⟩ => ⟨S16384x256, .f32⟩
  | .hbm, ⟨99, _⟩ => ⟨S1x256, .f32⟩
  | .hbm, ⟨100, _⟩ => ⟨S16384x256, .f32⟩
  | .hbm, ⟨101, _⟩ => ⟨S16384x256, .f32⟩
  | _, _ => ⟨S16384x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_1 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_cst : Ref sig .tc := ⟨.hbm, 94, rfl⟩
abbrev main_call1_v0 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  transposes_S2688x896_S896x2688_1_0 : S2688x896.Transposes [1, 0] S896x2688
  concatenates_S16384x1_S16384x1_S16384x2_d1 : Shape.Concatenates [S16384x1, S16384x1] S16384x2 1
  transposes_S1344x2_S2x1344_1_0 : S1344x2.Transposes [1, 0] S2x1344
  concatenates_S16384x1_S16384x1_S16384x1_S16384x3_d1 : Shape.Concatenates [S16384x1, S16384x1, S16384x1] S16384x3 1
  transposes_S1344x3_S3x1344_1_0 : S1344x3.Transposes [1, 0] S3x1344
  slices_S16384x1344_S16384x448_0_0 : S16384x1344.Slices ![0, 0] S16384x448
  concatenates_S16384x448_S16384x448_S16384x896_d1 : Shape.Concatenates [S16384x448, S16384x448] S16384x896 1
  slices_S16384x1344_S16384x448_0_448 : S16384x1344.Slices ![0, 448] S16384x448
  slices_S16384x1344_S16384x448_0_896 : S16384x1344.Slices ![0, 896] S16384x448
  slices_S16384x2688_S16384x896_0_0 : S16384x2688.Slices ![0, 0] S16384x896
  bcast_S896_S1x896_1 : S896.BroadcastsInDim S1x896 (![1] : Fin 1 → Fin S1x896.rank)
  bcast_S1x896_S16384x896_0_1 : S1x896.BroadcastsInDim S16384x896 (![0, 1] : Fin 2 → Fin S16384x896.rank)
  bcast_S_S16384x896 : S_.BroadcastsInDim S16384x896 (![] : Fin 0 → Fin S16384x896.rank)
  slices_S16384x2688_S16384x896_0_896 : S16384x2688.Slices ![0, 896] S16384x896
  slices_S16384x2688_S16384x896_0_1792 : S16384x2688.Slices ![0, 1792] S16384x896
  slices_S16384x896_S16384x448_0_0 : S16384x896.Slices ![0, 0] S16384x448
  slices_S16384x896_S16384x448_0_448 : S16384x896.Slices ![0, 448] S16384x448
  transposes_S448x448_S448x448_1_0 : S448x448.Transposes [1, 0] S448x448
  bcast_S448_S1x448_1 : S448.BroadcastsInDim S1x448 (![1] : Fin 1 → Fin S1x448.rank)
  bcast_S1x448_S16384x448_0_1 : S1x448.BroadcastsInDim S16384x448 (![0, 1] : Fin 2 → Fin S16384x448.rank)
  bcast_S_S16384x448 : S_.BroadcastsInDim S16384x448 (![] : Fin 0 → Fin S16384x448.rank)
  transposes_S256x448_S448x256_1_0 : S256x448.Transposes [1, 0] S448x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x896_S896x2688_S16384x2688_1_0_0_1_n_n_wf : DotDims.WF S16384x896 S896x2688 S16384x2688 [1] [0] [0] [1] [] []
  dot_S16384x2_S2x1344_S16384x1344_1_0_0_1_n_n_wf : DotDims.WF S16384x2 S2x1344 S16384x1344 [1] [0] [0] [1] [] []
  dot_S16384x3_S3x1344_S16384x1344_1_0_0_1_n_n_wf : DotDims.WF S16384x3 S3x1344 S16384x1344 [1] [0] [0] [1] [] []
  dot_S16384x448_S448x448_S16384x448_1_0_0_1_n_n_wf : DotDims.WF S16384x448 S448x448 S16384x448 [1] [0] [0] [1] [] []
  dot_S16384x448_S448x256_S16384x256_1_0_0_1_n_n_wf : DotDims.WF S16384x448 S448x256 S16384x256 [1] [0] [0] [1] [] []

variable [Facts₀]

def dot_S16384x896_S896x2688_S16384x2688_1_0_0_1_n_n : DotDims S16384x896 S896x2688 S16384x2688 where
  lhsContracting := [1]
  rhsContracting := [0]
  lhsNonContracting := [0]
  rhsNonContracting := [1]
  lhsBatch := []
  rhsBatch := []
  wf := dot_S16384x896_S896x2688_S16384x2688_1_0_0_1_n_n_wf
def dot_S16384x2_S2x1344_S16384x1344_1_0_0_1_n_n : DotDims S16384x2 S2x1344 S16384x1344 where
  lhsContracting := [1]
  rhsContracting := [0]
  lhsNonContracting := [0]
  rhsNonContracting := [1]
  lhsBatch := []
  rhsBatch := []
  wf := dot_S16384x2_S2x1344_S16384x1344_1_0_0_1_n_n_wf
def dot_S16384x3_S3x1344_S16384x1344_1_0_0_1_n_n : DotDims S16384x3 S3x1344 S16384x1344 where
  lhsContracting := [1]
  rhsContracting := [0]
  lhsNonContracting := [0]
  rhsNonContracting := [1]
  lhsBatch := []
  rhsBatch := []
  wf := dot_S16384x3_S3x1344_S16384x1344_1_0_0_1_n_n_wf
def dot_S16384x448_S448x448_S16384x448_1_0_0_1_n_n : DotDims S16384x448 S448x448 S16384x448 where
  lhsContracting := [1]
  rhsContracting := [0]
  lhsNonContracting := [0]
  rhsNonContracting := [1]
  lhsBatch := []
  rhsBatch := []
  wf := dot_S16384x448_S448x448_S16384x448_1_0_0_1_n_n_wf
def dot_S16384x448_S448x256_S16384x256_1_0_0_1_n_n : DotDims S16384x448 S448x256 S16384x256 where
  lhsContracting := [1]
  rhsContracting := [0]
  lhsNonContracting := [0]
  rhsNonContracting := [1]
  lhsBatch := []
  rhsBatch := []
  wf := dot_S16384x448_S448x256_S16384x256_1_0_0_1_n_n_wf

class Facts : Prop extends Facts₀ where

variable [Facts]
-- ==== Proof.Spec.lean ====
/-
  The gated recurrent cell, one batch row at a time, on the extended reals.

  A row carries the previous hidden state `h` (896 entries) and three scalars `c1`, `f1`, `ct`. The weights are
  read by coordinates: `rw n k` is entry (n, k) of the recurrent matrix (2688 × 896), `ic0`, `ic1` the two columns
  of the coarse input matrix, `if0`, `if1`, `if2` the three columns of the fine one (1344 entries each),
  `bu`, `br`, `be` the gate biases, and `o1w … o4b` the two two-layer heads.

  With `R n = ∑ k, h k · rw n k`, `C n = c1 · ic0 n + f1 · ic1 n`, `Fn n = c1 · if0 n + f1 · if1 n + ct · if2 n`
  and the gate input `I o j = C (o + j)` for `j < 448`, `Fn (o + j − 448)` otherwise,
      u j = σ (R j + I 0 j + bu j),   r j = σ (R (896 + j) + I 448 j + br j),
      e j = tanh (r j · R (1792 + j) + I 896 j + be j),   h' j = u j · h j + (1 − u j) · e j,
  and the two heads are `∑ k, max (∑ l, h' (off + l) · w1 k l + b1 k) 0 · w2 n k + b2 n` over the two halves of `h'`.
-/
import Idealize.ShloMosaic.PureOps.Ideal
import Idealize.ShloMosaic.PureOps.Ideal.Laws
import Idealize.ShloMosaic.Lib.ValueIdx

noncomputable section

namespace Cert.Gru

open Idealize.ShloMosaic Idealize.ShloMosaic.ValueIdx

/-- One batch row: the previous hidden state and the three scalar inputs. -/
structure Row where
  h : Fin 896 → EReal
  c1 : EReal
  f1 : EReal
  ct : EReal

/-- The weights, read by coordinates. -/
structure Weights where
  rw : Fin 2688 → Fin 896 → EReal
  ic0 : Fin 1344 → EReal
  ic1 : Fin 1344 → EReal
  if0 : Fin 1344 → EReal
  if1 : Fin 1344 → EReal
  if2 : Fin 1344 → EReal
  bu : Fin 896 → EReal
  br : Fin 896 → EReal
  be : Fin 896 → EReal
  o1w : Fin 448 → Fin 448 → EReal
  o1b : Fin 448 → EReal
  o2w : Fin 448 → Fin 448 → EReal
  o2b : Fin 448 → EReal
  o3w : Fin 256 → Fin 448 → EReal
  o3b : Fin 256 → EReal
  o4w : Fin 256 → Fin 448 → EReal
  o4b : Fin 256 → EReal

variable (W : Weights) (r : Row)

/-- The recurrent product: row `n` of the recurrent matrix against the hidden state. -/
def rec (n : Fin 2688) : EReal := ∑ k : Fin 896, r.h k * W.rw n k

/-- The coarse input projection. -/
def coarse (n : Fin 1344) : EReal := r.c1 * W.ic0 n + r.f1 * W.ic1 n

/-- The fine input projection. -/
def fine (n : Fin 1344) : EReal := r.c1 * W.if0 n + r.f1 * W.if1 n + r.ct * W.if2 n

/-- The gate input at column `j`: the coarse projection on the first half, the fine one on the second, both read
    from offset `o` on. -/
def gateIn (o : Nat) (ho : o + 448 ≤ 1344) (j : Fin 896) : EReal :=
  if h : j.val < 448 then coarse W r ⟨o + j.val, by omega⟩ else fine W r ⟨o + (j.val - 448), by omega⟩

/-- The update gate. -/
def upd (j : Fin 896) : EReal :=
  Ideal.logistic (rec W r ⟨j.val, by omega⟩ + gateIn W r 0 (by omega) j + W.bu j)

/-- The reset gate. -/
def rst (j : Fin 896) : EReal :=
  Ideal.logistic (rec W r ⟨896 + j.val, by omega⟩ + gateIn W r 448 (by omega) j + W.br j)

/-- The candidate state. -/
def cand (j : Fin 896) : EReal :=
  Ideal.tanh (rst W r j * rec W r ⟨1792 + j.val, by omega⟩ + gateIn W r 896 (by omega) j + W.be j)

/-- The new hidden state. -/
def hnew (j : Fin 896) : EReal := upd W r j * r.h j + (1 - upd W r j) * cand W r j

/-- A head's hidden layer over the half of the new state that starts at `off`. -/
def hid (w1 : Fin 448 → Fin 448 → EReal) (b1 : Fin 448 → EReal) (off : Nat) (hoff : off + 448 ≤ 896) (k : Fin 448) : EReal :=
  max (∑ l : Fin 448, hnew W r ⟨off + l.val, by omega⟩ * w1 k l + b1 k) 0

/-- A head's output. -/
def head (w1 : Fin 448 → Fin 448 → EReal) (b1 : Fin 448 → EReal) (w2 : Fin 256 → Fin 448 → EReal) (b2 : Fin 256 → EReal)
    (off : Nat) (hoff : off + 448 ≤ 896) (n : Fin 256) : EReal :=
  ∑ k : Fin 448, hid W r w1 b1 off hoff k * w2 n k + b2 n

/-- The coarse head's output. -/
def pct (n : Fin 256) : EReal := head W r W.o1w W.o1b W.o3w W.o3b 0 (by omega) n

/-- The fine head's output. -/
def pft (n : Fin 256) : EReal := head W r W.o2w W.o2b W.o4w W.o4b 448 (by omega) n

/-! ## Rows and weights read off arrays -/

/-- An `a × b` array of extended reals. -/
abbrev Mat (a b : Nat) : Type := (⟨2, ![a, b]⟩ : Shape).Idx → EReal
/-- A length-`a` array of extended reals. -/
abbrev Arr (a : Nat) : Type := (⟨1, ![a]⟩ : Shape).Idx → EReal

/-- Row `b` of the batch: row `b` of the hidden-state array and entry `b` of the three scalar columns. -/
def rowOf {R : Nat} (h : Mat R 896) (c1 f1 ct : Mat R 1) (b : Fin R) : Row :=
  ⟨fun k => h (ix2 b k), c1 (ix2 b 0), f1 (ix2 b 0), ct (ix2 b 0)⟩

/-- The weights as the argument arrays hold them: every matrix stored (output, input). -/
def weightsOf (rw : Mat 2688 896) (ic : Mat 1344 2) (ifw : Mat 1344 3) (o1w : Mat 448 448) (o1b : Arr 448) (o2w : Mat 448 448)
    (o2b : Arr 448) (o3w : Mat 256 448) (o3b : Arr 256) (o4w : Mat 256 448) (o4b : Arr 256) (bu br be : Arr 896) : Weights where
  rw := fun n k => rw (ix2 n k)
  ic0 := fun n => ic (ix2 n 0)
  ic1 := fun n => ic (ix2 n 1)
  if0 := fun n => ifw (ix2 n 0)
  if1 := fun n => ifw (ix2 n 1)
  if2 := fun n => ifw (ix2 n 2)
  bu := fun j => bu (ix1 j)
  br := fun j => br (ix1 j)
  be := fun j => be (ix1 j)
  o1w := fun k l => o1w (ix2 k l)
  o1b := fun k => o1b (ix1 k)
  o2w := fun k l => o2w (ix2 k l)
  o2b := fun k => o2b (ix1 k)
  o3w := fun n k => o3w (ix2 n k)
  o3b := fun n => o3b (ix1 n)
  o4w := fun n k => o4w (ix2 n k)
  o4b := fun n => o4b (ix1 n)

/-- The weights as one grid point's blocks hold them: the matrices transposed to (input, output), the input
    matrices' columns and every bias as a one-row matrix. -/
def weightsOfBlocks (rwT : Mat 896 2688) (ic0 ic1 if0 if1 if2 : Mat 1 1344) (o1wT : Mat 448 448) (o1b : Mat 1 448)
    (o2wT : Mat 448 448) (o2b : Mat 1 448) (o3wT : Mat 448 256) (o3b : Mat 1 256) (o4wT : Mat 448 256) (o4b : Mat 1 256)
    (bu br be : Mat 1 896) : Weights where
  rw := fun n k => rwT (ix2 k n)
  ic0 := fun n => ic0 (ix2 0 n)
  ic1 := fun n => ic1 (ix2 0 n)
  if0 := fun n => if0 (ix2 0 n)
  if1 := fun n => if1 (ix2 0 n)
  if2 := fun n => if2 (ix2 0 n)
  bu := fun j => bu (ix2 0 j)
  br := fun j => br (ix2 0 j)
  be := fun j => be (ix2 0 j)
  o1w := fun k l => o1wT (ix2 l k)
  o1b := fun k => o1b (ix2 0 k)
  o2w := fun k l => o2wT (ix2 l k)
  o2b := fun k => o2b (ix2 0 k)
  o3w := fun n k => o3wT (ix2 k n)
  o3b := fun n => o3b (ix2 0 n)
  o4w := fun n k => o4wT (ix2 k n)
  o4b := fun n => o4b (ix2 0 n)

/-- The f32 word of `1.0` is the extended real one. -/
theorem one_f32 : Ideal.ofBits .f32 0x3F800000#32 = 1 := by simp [Ideal.ofBits, Ideal.ieee, -EReal.coe_mul]; norm_num

end Cert.Gru

end
-- ==== Proof.BodyDots.lean ====
import proofs.«124156_j85950885527647_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! # The kernel body's matrix products, read at an index

At the ideal values (extended reals, no rounding) the three payloads of the kernel body that hold a matrix product are
plain sums: the recurrent product x · W, and the two copies of the two-layer head
(max (v · W₁ + b₁) 0) · W₂ + b₂. A narrowing format change is the identity there, a shape cast to the same shape is the
identity, the zero word is 0, and a one-row bias broadcast over the rows reads its row 0. -/

noncomputable section

namespace Cert.Gru.Body

open Cert.KernelIdeal Cert.KernelIdeal.Gen Idealize.ShloMosaic Idealize.ShloMosaic.ValueIdx

/-! ## The recurrent product, [256,896] × [896,2688]

The product contracts the left operand's axis 1 with the right operand's axis 0 and has no batch axis: at the output
index (p, n) and the contraction index k the left operand is read at (p, k) and the right one at (k, n). The four
coordinate facts come first, then the product at an index as the sum over k. -/

theorem lhs_rec_0 (i : S256x2688.Idx) (q : dot_S256x896_S896x2688_S256x2688_1_0_0_1_n_n.contr.Idx) :
    (dot_S256x896_S896x2688_S256x2688_1_0_0_1_n_n.lhsIdx i q 0).val = (i 0).val := by
  unfold DotDims.lhsIdx
  rw [dif_neg (show ¬(0 : Fin S256x896.rank) ∈ dot_S256x896_S896x2688_S256x2688_1_0_0_1_n_n.lhsBatch by decide), dif_pos (show (0 : Fin S256x896.rank) ∈ dot_S256x896_S896x2688_S256x2688_1_0_0_1_n_n.lhsNonContracting by decide)]
  rfl
theorem lhs_rec_1 (i : S256x2688.Idx) (q : dot_S256x896_S896x2688_S256x2688_1_0_0_1_n_n.contr.Idx) :
    (dot_S256x896_S896x2688_S256x2688_1_0_0_1_n_n.lhsIdx i q 1).val = (q ⟨0, by decide⟩).val :=
  dot_S256x896_S896x2688_S256x2688_1_0_0_1_n_n.lhsIdx_val_of_single rfl i q
theorem rhs_rec_0 (i : S256x2688.Idx) (q : dot_S256x896_S896x2688_S256x2688_1_0_0_1_n_n.contr.Idx) :
    (dot_S256x896_S896x2688_S256x2688_1_0_0_1_n_n.rhsIdx i q 0).val = (q ⟨0, by decide⟩).val :=
  dot_S256x896_S896x2688_S256x2688_1_0_0_1_n_n.rhsIdx_val_of_single rfl i q
theorem rhs_rec_1 (i : S256x2688.Idx) (q : dot_S256x896_S896x2688_S256x2688_1_0_0_1_n_n.contr.Idx) :
    (dot_S256x896_S896x2688_S256x2688_1_0_0_1_n_n.rhsIdx i q 1).val = (i 1).val := by
  unfold DotDims.rhsIdx
  rw [dif_neg (show ¬(1 : Fin S896x2688.rank) ∈ dot_S256x896_S896x2688_S256x2688_1_0_0_1_n_n.rhsBatch by decide), dif_pos (show (1 : Fin S896x2688.rank) ∈ dot_S256x896_S896x2688_S256x2688_1_0_0_1_n_n.rhsNonContracting by decide)]
  rfl

/-- Into the zero accumulator the product at (p, n) is ∑ₖ l (p, k) · r (k, n). -/
theorem matmul_rec_apply {φ₁ φ₂ : FTy} (l : FVec Ideal S256x896 φ₁) (r : FVec Ideal S896x2688 φ₂) (p : Fin 256) (n : Fin 2688) :
    matmul dot_S256x896_S896x2688_S256x2688_1_0_0_1_n_n none l r (constant S256x2688 .f32 0x00000000#32) (ix2 p n)
      = ∑ k : Fin 896, l (ix2 p k) * r (ix2 k n) := by
  simp only [matmul]
  rw [Ideal.matmul_constant_zero_apply, ← Equiv.sum_comp (contrEquiv1 dot_S256x896_S896x2688_S256x2688_1_0_0_1_n_n 896 rfl rfl).symm]
  refine Finset.sum_congr rfl fun k _ => ?_
  have hk := contrEquiv1_symm_val dot_S256x896_S896x2688_S256x2688_1_0_0_1_n_n 896 rfl rfl k
  have el : dot_S256x896_S896x2688_S256x2688_1_0_0_1_n_n.lhsIdx (ix2 p n) ((contrEquiv1 dot_S256x896_S896x2688_S256x2688_1_0_0_1_n_n 896 rfl rfl).symm k) = ix2 p k := funext fun a => Fin.ext (by
    match a with
    | ⟨0, _⟩ => exact lhs_rec_0 _ _
    | ⟨1, _⟩ => exact (lhs_rec_1 _ _).trans hk)
  have er : dot_S256x896_S896x2688_S256x2688_1_0_0_1_n_n.rhsIdx (ix2 p n) ((contrEquiv1 dot_S256x896_S896x2688_S256x2688_1_0_0_1_n_n 896 rfl rfl).symm k) = ix2 k n := funext fun a => Fin.ext (by
    match a with
    | ⟨0, _⟩ => exact (rhs_rec_0 _ _).trans hk
    | ⟨1, _⟩ => exact rhs_rec_1 _ _)
  rw [el, er]

/-! ## The head's first layer, [256,448] × [448,448]

The product contracts the left operand's axis 1 with the right operand's axis 0 and has no batch axis: at the output
index (p, n) and the contraction index k the left operand is read at (p, k) and the right one at (k, n). The four
coordinate facts come first, then the product at an index as the sum over k. -/

theorem lhs_hid_0 (i : S256x448.Idx) (q : dot_S256x448_S448x448_S256x448_1_0_0_1_n_n.contr.Idx) :
    (dot_S256x448_S448x448_S256x448_1_0_0_1_n_n.lhsIdx i q 0).val = (i 0).val := by
  unfold DotDims.lhsIdx
  rw [dif_neg (show ¬(0 : Fin S256x448.rank) ∈ dot_S256x448_S448x448_S256x448_1_0_0_1_n_n.lhsBatch by decide), dif_pos (show (0 : Fin S256x448.rank) ∈ dot_S256x448_S448x448_S256x448_1_0_0_1_n_n.lhsNonContracting by decide)]
  rfl
theorem lhs_hid_1 (i : S256x448.Idx) (q : dot_S256x448_S448x448_S256x448_1_0_0_1_n_n.contr.Idx) :
    (dot_S256x448_S448x448_S256x448_1_0_0_1_n_n.lhsIdx i q 1).val = (q ⟨0, by decide⟩).val :=
  dot_S256x448_S448x448_S256x448_1_0_0_1_n_n.lhsIdx_val_of_single rfl i q
theorem rhs_hid_0 (i : S256x448.Idx) (q : dot_S256x448_S448x448_S256x448_1_0_0_1_n_n.contr.Idx) :
    (dot_S256x448_S448x448_S256x448_1_0_0_1_n_n.rhsIdx i q 0).val = (q ⟨0, by decide⟩).val :=
  dot_S256x448_S448x448_S256x448_1_0_0_1_n_n.rhsIdx_val_of_single rfl i q
theorem rhs_hid_1 (i : S256x448.Idx) (q : dot_S256x448_S448x448_S256x448_1_0_0_1_n_n.contr.Idx) :
    (dot_S256x448_S448x448_S256x448_1_0_0_1_n_n.rhsIdx i q 1).val = (i 1).val := by
  unfold DotDims.rhsIdx
  rw [dif_neg (show ¬(1 : Fin S448x448.rank) ∈ dot_S256x448_S448x448_S256x448_1_0_0_1_n_n.rhsBatch by decide), dif_pos (show (1 : Fin S448x448.rank) ∈ dot_S256x448_S448x448_S256x448_1_0_0_1_n_n.rhsNonContracting by decide)]
  rfl

/-- Into the zero accumulator the product at (p, n) is ∑ₖ l (p, k) · r (k, n). -/
theorem matmul_hid_apply {φ₁ φ₂ : FTy} (l : FVec Ideal S256x448 φ₁) (r : FVec Ideal S448x448 φ₂) (p : Fin 256) (n : Fin 448) :
    matmul dot_S256x448_S448x448_S256x448_1_0_0_1_n_n none l r (constant S256x448 .f32 0x00000000#32) (ix2 p n)
      = ∑ k : Fin 448, l (ix2 p k) * r (ix2 k n) := by
  simp only [matmul]
  rw [Ideal.matmul_constant_zero_apply, ← Equiv.sum_comp (contrEquiv1 dot_S256x448_S448x448_S256x448_1_0_0_1_n_n 448 rfl rfl).symm]
  refine Finset.sum_congr rfl fun k _ => ?_
  have hk := contrEquiv1_symm_val dot_S256x448_S448x448_S256x448_1_0_0_1_n_n 448 rfl rfl k
  have el : dot_S256x448_S448x448_S256x448_1_0_0_1_n_n.lhsIdx (ix2 p n) ((contrEquiv1 dot_S256x448_S448x448_S256x448_1_0_0_1_n_n 448 rfl rfl).symm k) = ix2 p k := funext fun a => Fin.ext (by
    match a with
    | ⟨0, _⟩ => exact lhs_hid_0 _ _
    | ⟨1, _⟩ => exact (lhs_hid_1 _ _).trans hk)
  have er : dot_S256x448_S448x448_S256x448_1_0_0_1_n_n.rhsIdx (ix2 p n) ((contrEquiv1 dot_S256x448_S448x448_S256x448_1_0_0_1_n_n 448 rfl rfl).symm k) = ix2 k n := funext fun a => Fin.ext (by
    match a with
    | ⟨0, _⟩ => exact (rhs_hid_0 _ _).trans hk
    | ⟨1, _⟩ => exact rhs_hid_1 _ _)
  rw [el, er]

/-! ## The head's second layer, [256,448] × [448,256]

The product contracts the left operand's axis 1 with the right operand's axis 0 and has no batch axis: at the output
index (p, n) and the contraction index k the left operand is read at (p, k) and the right one at (k, n). The four
coordinate facts come first, then the product at an index as the sum over k. -/

theorem lhs_out_0 (i : S256x256.Idx) (q : dot_S256x448_S448x256_S256x256_1_0_0_1_n_n.contr.Idx) :
    (dot_S256x448_S448x256_S256x256_1_0_0_1_n_n.lhsIdx i q 0).val = (i 0).val := by
  unfold DotDims.lhsIdx
  rw [dif_neg (show ¬(0 : Fin S256x448.rank) ∈ dot_S256x448_S448x256_S256x256_1_0_0_1_n_n.lhsBatch by decide), dif_pos (show (0 : Fin S256x448.rank) ∈ dot_S256x448_S448x256_S256x256_1_0_0_1_n_n.lhsNonContracting by decide)]
  rfl
theorem lhs_out_1 (i : S256x256.Idx) (q : dot_S256x448_S448x256_S256x256_1_0_0_1_n_n.contr.Idx) :
    (dot_S256x448_S448x256_S256x256_1_0_0_1_n_n.lhsIdx i q 1).val = (q ⟨0, by decide⟩).val :=
  dot_S256x448_S448x256_S256x256_1_0_0_1_n_n.lhsIdx_val_of_single rfl i q
theorem rhs_out_0 (i : S256x256.Idx) (q : dot_S256x448_S448x256_S256x256_1_0_0_1_n_n.contr.Idx) :
    (dot_S256x448_S448x256_S256x256_1_0_0_1_n_n.rhsIdx i q 0).val = (q ⟨0, by decide⟩).val :=
  dot_S256x448_S448x256_S256x256_1_0_0_1_n_n.rhsIdx_val_of_single rfl i q
theorem rhs_out_1 (i : S256x256.Idx) (q : dot_S256x448_S448x256_S256x256_1_0_0_1_n_n.contr.Idx) :
    (dot_S256x448_S448x256_S256x256_1_0_0_1_n_n.rhsIdx i q 1).val = (i 1).val := by
  unfold DotDims.rhsIdx
  rw [dif_neg (show ¬(1 : Fin S448x256.rank) ∈ dot_S256x448_S448x256_S256x256_1_0_0_1_n_n.rhsBatch by decide), dif_pos (show (1 : Fin S448x256.rank) ∈ dot_S256x448_S448x256_S256x256_1_0_0_1_n_n.rhsNonContracting by decide)]
  rfl

/-- Into the zero accumulator the product at (p, n) is ∑ₖ l (p, k) · r (k, n). -/
theorem matmul_out_apply {φ₁ φ₂ : FTy} (l : FVec Ideal S256x448 φ₁) (r : FVec Ideal S448x256 φ₂) (p : Fin 256) (n : Fin 256) :
    matmul dot_S256x448_S448x256_S256x256_1_0_0_1_n_n none l r (constant S256x256 .f32 0x00000000#32) (ix2 p n)
      = ∑ k : Fin 448, l (ix2 p k) * r (ix2 k n) := by
  simp only [matmul]
  rw [Ideal.matmul_constant_zero_apply, ← Equiv.sum_comp (contrEquiv1 dot_S256x448_S448x256_S256x256_1_0_0_1_n_n 448 rfl rfl).symm]
  refine Finset.sum_congr rfl fun k _ => ?_
  have hk := contrEquiv1_symm_val dot_S256x448_S448x256_S256x256_1_0_0_1_n_n 448 rfl rfl k
  have el : dot_S256x448_S448x256_S256x256_1_0_0_1_n_n.lhsIdx (ix2 p n) ((contrEquiv1 dot_S256x448_S448x256_S256x256_1_0_0_1_n_n 448 rfl rfl).symm k) = ix2 p k := funext fun a => Fin.ext (by
    match a with
    | ⟨0, _⟩ => exact lhs_out_0 _ _
    | ⟨1, _⟩ => exact (lhs_out_1 _ _).trans hk)
  have er : dot_S256x448_S448x256_S256x256_1_0_0_1_n_n.rhsIdx (ix2 p n) ((contrEquiv1 dot_S256x448_S448x256_S256x256_1_0_0_1_n_n 448 rfl rfl).symm k) = ix2 k n := funext fun a => Fin.ext (by
    match a with
    | ⟨0, _⟩ => exact (rhs_out_0 _ _).trans hk
    | ⟨1, _⟩ => exact rhs_out_1 _ _)
  rw [el, er]

/-! ## The recurrent product -/

/-- The recurrent product at (p, n): ∑ₖ x (p, k) · W (k, n). -/
theorem pay3_apply (x0 : Vec Ideal S256x896 .f32) (x4 : Vec Ideal S896x2688 .bf16) (p : Fin 256) (n : Fin 2688) :
    k0_pay3 (F := Ideal) x0 x4 (ix2 p n) = ∑ k : Fin 896, x0 (ix2 p k) * x4 (ix2 k n) := by
  unfold k0_pay3
  rw [shapeCast_self]
  exact matmul_rec_apply (truncf .bf16 x0 bitsLt_bf16_f32) x4 p n

/-! ## The two-layer head

Both copies are the same expression of their operands; in the first the first layer's weight and bias arrive through a
shape cast to their own shape, which is the identity. -/

/-- The head at (p, n): ∑ₖ max (∑ₗ v (p, l) · W₁ (l, k) + b₁ (0, k)) 0 · W₂ (k, n) + b₂ (0, n). -/
theorem pay1_apply (v : FVec Ideal S256x448 .bf16) (w1 : Vec Ideal S448x448 .bf16) (b1 : Vec Ideal S1x448 .f32) (w2 : Vec Ideal S448x256 .bf16) (b2 : Vec Ideal S1x256 .f32) (p : Fin 256) (n : Fin 256) :
    k0_pay1 (F := Ideal) v (k0_pay11 w1) (k0_pay12 b1) w2 b2 (ix2 p n)
      = (∑ k : Fin 448, (max ((∑ l : Fin 448, v (ix2 p l) * w1 (ix2 l k)) + b1 (ix2 0 k)) 0) * w2 (ix2 k n)) + b2 (ix2 0 n) := by
  unfold k0_pay1 k0_pay11 k0_pay12
  simp only [shapeCast_self]
  rw [addf_apply, matmul_out_apply, broadcastTo_1b_ab_apply]
  refine congrArg (· + b2 (ix2 0 n)) (Finset.sum_congr rfl fun k _ => ?_)
  rw [truncf_apply, maximumf_apply, addf_apply, matmul_hid_apply, broadcastTo_1b_ab_apply, broadcast_apply]
  show max _ (Ideal.ofBits .f32 0x00000000#32) * _ = _
  rw [Ideal.ofBits_zero_f32]

/-- The head at (p, n): ∑ₖ max (∑ₗ v (p, l) · W₁ (l, k) + b₁ (0, k)) 0 · W₂ (k, n) + b₂ (0, n). -/
theorem pay2_apply (v : FVec Ideal S256x448 .bf16) (w1 : Vec Ideal S448x448 .bf16) (b1 : Vec Ideal S1x448 .f32) (w2 : Vec Ideal S448x256 .bf16) (b2 : Vec Ideal S1x256 .f32) (p : Fin 256) (n : Fin 256) :
    k0_pay2 (F := Ideal) v w1 b1 w2 b2 (ix2 p n)
      = (∑ k : Fin 448, (max ((∑ l : Fin 448, v (ix2 p l) * w1 (ix2 l k)) + b1 (ix2 0 k)) 0) * w2 (ix2 k n)) + b2 (ix2 0 n) := by
  unfold k0_pay2
  simp only [shapeCast_self]
  rw [addf_apply, matmul_out_apply, broadcastTo_1b_ab_apply]
  refine congrArg (· + b2 (ix2 0 n)) (Finset.sum_congr rfl fun k _ => ?_)
  rw [truncf_apply, maximumf_apply, addf_apply, matmul_hid_apply, broadcastTo_1b_ab_apply, broadcast_apply]
  show max _ (Ideal.ofBits .f32 0x00000000#32) * _ = _
  rw [Ideal.ofBits_zero_f32]

end Cert.Gru.Body

end
-- ==== Proof.BodyState.lean ====
/-
  The idealized kernel's body at one grid point, read entry by entry: the new hidden state of a block's row `p`
  is the gated cell of `Spec.lean` applied to that row, with the weights read off the point's blocks.

  The body forms the recurrent product (256 × 2688), the coarse and fine input projections (256 × 1344 each, a sum
  of two, resp. three, outer products of a column with a row), cuts each into three 448-wide column bands, joins
  band `g` of the coarse projection with band `g` of the fine one into the gate input `g` (256 × 896), and applies
  the gates pointwise. Read at entry (p, j) every layout operation is a shift of the column index, so the entry is
  the per-row formula.
-/
import proofs.«124156_j85950885527647_1_alg».proof.Proof.Gen.KernelIdeal.Skeleton
import proofs.«124156_j85950885527647_1_alg».proof.Proof.Spec
import proofs.«124156_j85950885527647_1_alg».proof.Proof.BodyDots
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.Gru.Layout

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two `[a, m]` arrays joined along the columns into `[a, n]`: a column below `m` reads the first. -/
theorem concat_cols_left {a m n : ℕ} (x₁ x₂ : (⟨2, ![a, m]⟩ : Shape).Idx → α)
    (h : Shape.Concatenates [(⟨2, ![a, m]⟩ : Shape), ⟨2, ![a, m]⟩] ⟨2, ![a, n]⟩ 1) (p : Fin a) (j : Fin n) (hj : j.val < m) :
    concatenate ⟨2, ![a, n]⟩ 1 [⟨⟨2, ![a, m]⟩, x₁⟩, ⟨⟨2, ![a, m]⟩, x₂⟩] h (ix2 p j) = x₁ (ix2 p ⟨j.val, hj⟩) :=
  concatenate_pair_apply_left (1 : Fin 2) x₁ x₂ h (ix2 p j) rfl (ix2 p ⟨j.val, hj⟩) fun b => by
    match b with
    | ⟨0, _⟩ => rfl
    | ⟨1, _⟩ => rfl

/-- … and a column from `m` on reads the second, `m` columns earlier. -/
theorem concat_cols_right {a m n : ℕ} (x₁ x₂ : (⟨2, ![a, m]⟩ : Shape).Idx → α)
    (h : Shape.Concatenates [(⟨2, ![a, m]⟩ : Shape), ⟨2, ![a, m]⟩] ⟨2, ![a, n]⟩ 1) (p : Fin a) (j : Fin n) (hj : m ≤ j.val)
    (hj' : j.val - m < m) :
    concatenate ⟨2, ![a, n]⟩ 1 [⟨⟨2, ![a, m]⟩, x₁⟩, ⟨⟨2, ![a, m]⟩, x₂⟩] h (ix2 p j) = x₂ (ix2 p ⟨j.val - m, hj'⟩) :=
  concatenate_pair_apply_right (1 : Fin 2) x₁ x₂ h (ix2 p j) rfl rfl (ix2 p ⟨j.val - m, hj'⟩)
    (fun b hb => by
      match b with
      | ⟨0, _⟩ => rfl
      | ⟨1, _⟩ => exact absurd rfl hb)
    (by show j.val - m + m = j.val; omega)

end Cert.Gru.Layout

namespace Cert.Gru.Body

open Cert.KernelIdeal Cert.KernelIdeal.Gen Cert.Gru Cert.Gru.Layout

/-- The coarse projection's entry (p, n): the two scalars of row `p` against column `n` of the two weight rows. -/
theorem pay4_apply (x1 x2 : Vec Ideal S256x1 .f32) (x5 x6 : Vec Ideal S1x1344 .f32) (p : Fin 256) (n : Fin 1344) :
    k0_pay4 (F := Ideal) x1 x2 x5 x6 (ix2 p n) = x1 (ix2 p 0) * x5 (ix2 0 n) + x2 (ix2 p 0) * x6 (ix2 0 n) := by
  unfold k0_pay4
  simp only [addf_apply, mulf_apply, shapeCast_self, broadcastTo_a1_ab_apply, broadcastTo_1b_ab_apply]

/-- The fine projection's entry (p, n), with the third scalar. -/
theorem pay5_apply (x1 x2 x3 : Vec Ideal S256x1 .f32) (x7 x8 x9 : Vec Ideal S1x1344 .f32) (p : Fin 256) (n : Fin 1344) :
    k0_pay5 (F := Ideal) x1 x2 x3 x7 x8 x9 (ix2 p n)
      = x1 (ix2 p 0) * x7 (ix2 0 n) + x2 (ix2 p 0) * x8 (ix2 0 n) + x3 (ix2 p 0) * x9 (ix2 0 n) := by
  unfold k0_pay5
  simp only [addf_apply, mulf_apply, shapeCast_self, broadcastTo_a1_ab_apply, broadcastTo_1b_ab_apply]

/-- Pointwise `logistic` and `tanh` read at an index. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

section Point

variable (x0 : Vec Ideal S256x896 .f32) (x1 x2 x3 : Vec Ideal S256x1 .f32) (x4 : Vec Ideal S896x2688 .bf16)
  (x5 x6 x7 x8 x9 : Vec Ideal S1x1344 .f32) (x10 : Vec Ideal S448x448 .bf16) (x11 : Vec Ideal S1x448 .f32)
  (x12 : Vec Ideal S448x448 .bf16) (x13 : Vec Ideal S1x448 .f32) (x14 : Vec Ideal S448x256 .bf16) (x15 : Vec Ideal S1x256 .f32)
  (x16 : Vec Ideal S448x256 .bf16) (x17 : Vec Ideal S1x256 .f32) (x18 x19 x20 : Vec Ideal S1x896 .f32)

/-- The weights one grid point's blocks hold. -/
abbrev Wb : Weights := weightsOfBlocks x4 x5 x6 x7 x8 x9 x10 x11 x12 x13 x14 x15 x16 x17 x18 x19 x20

/-- Row `p` of the point's row blocks. -/
abbrev rb (p : Fin 256) : Row := rowOf (R := 256) x0 x1 x2 x3 p

/-- Band `o … o + 447` of the coarse projection joined with the same band of the fine one is the gate input from
    offset `o`. -/
theorem gateIn_apply (o : Nat) (ho : o + 448 ≤ 1344) (hs : S256x1344.Slices ![0, o] S256x448)
    (hc : Shape.Concatenates [S256x448, S256x448] S256x896 1) (p : Fin 256) (j : Fin 896) :
    concatenate S256x896 1 [⟨S256x448, extractStridedSlice S256x448 ![0, o] (k0_pay4 (F := Ideal) x1 x2 x5 x6) hs⟩,
        ⟨S256x448, extractStridedSlice S256x448 ![0, o] (k0_pay5 (F := Ideal) x1 x2 x3 x7 x8 x9) hs⟩] hc (ix2 p j)
      = gateIn (Wb x4 x5 x6 x7 x8 x9 x10 x11 x12 x13 x14 x15 x16 x17 x18 x19 x20) (rb x0 x1 x2 x3 p) o ho j := by
  unfold gateIn
  by_cases hj : j.val < 448
  · rw [dif_pos hj, concat_cols_left _ _ hc p j hj, slice2_axis1_eq, pay4_apply]
    rfl
  · rw [dif_neg hj, concat_cols_right _ _ hc p j (by omega) (by have := j.isLt; omega), slice2_axis1_eq, pay5_apply]
    rfl

/-- A 896-wide band of the recurrent product, read at (p, j), is the recurrent product of row `p` at the band's
    column. -/
theorem rec_apply (o : Nat) (hs : S256x2688.Slices ![0, o] S256x896) (p : Fin 256) (j : Fin 896) (n : Fin 2688)
    (hn : n.val = o + j.val) :
    extractStridedSlice S256x896 ![0, o] (k0_pay3 (F := Ideal) x0 x4) hs (ix2 p j)
      = rec (Wb x4 x5 x6 x7 x8 x9 x10 x11 x12 x13 x14 x15 x16 x17 x18 x19 x20) (rb x0 x1 x2 x3 p) n := by
  rw [slice2_axis1_apply o _ hs p j n hn, pay3_apply]
  rfl

/-- THE NEW HIDDEN STATE of the block's row `p` at column `j` is the gated cell of that row. -/
theorem state_apply (p : Fin 256) (j : Fin 896) :
    k0_pay8 (F := Ideal) x0 (k0_pay3 x0 x4) (k0_pay4 x1 x2 x5 x6) (k0_pay5 x1 x2 x3 x7 x8 x9) (k0_pay6 x1 x2 x5 x6)
        (k0_pay7 x1 x2 x3 x7 x8 x9) x18 x19 x20 (ix2 p j)
      = hnew (Wb x4 x5 x6 x7 x8 x9 x10 x11 x12 x13 x14 x15 x16 x17 x18 x19 x20) (rb x0 x1 x2 x3 p) j := by
  unfold k0_pay8 k0_pay6 k0_pay7 hnew upd cand rst
  simp only [addf_apply, mulf_apply, subf_apply, logistic_apply, tanh_apply, shapeCast_self, broadcastTo_1b_ab_apply,
    broadcast_apply]
  rw [rec_apply x0 x1 x2 x3 x4 x5 x6 x7 x8 x9 x10 x11 x12 x13 x14 x15 x16 x17 x18 x19 x20 0 _ p j ⟨j.val, by have := j.isLt; omega⟩ (Nat.zero_add _).symm,
    rec_apply x0 x1 x2 x3 x4 x5 x6 x7 x8 x9 x10 x11 x12 x13 x14 x15 x16 x17 x18 x19 x20 896 _ p j ⟨896 + j.val, by have := j.isLt; omega⟩ rfl,
    rec_apply x0 x1 x2 x3 x4 x5 x6 x7 x8 x9 x10 x11 x12 x13 x14 x15 x16 x17 x18 x19 x20 1792 _ p j ⟨1792 + j.val, by have := j.isLt; omega⟩ rfl,
    gateIn_apply x0 x1 x2 x3 x4 x5 x6 x7 x8 x9 x10 x11 x12 x13 x14 x15 x16 x17 x18 x19 x20 0 (by omega),
    gateIn_apply x0 x1 x2 x3 x4 x5 x6 x7 x8 x9 x10 x11 x12 x13 x14 x15 x16 x17 x18 x19 x20 448 (by omega),
    gateIn_apply x0 x1 x2 x3 x4 x5 x6 x7 x8 x9 x10 x11 x12 x13 x14 x15 x16 x17 x18 x19 x20 896 (by omega),
    show (FloatOps.ofBits (F := Ideal) .f32 0x3F800000#32) = 1 from one_f32]
  rfl

end Point

end Cert.Gru.Body

end
-- ==== Proof.BodyOut.lean ====
/-
  What the idealized kernel's body leaves in its three output blocks at one grid point, entry by entry: the new
  hidden state of the block's row `p` (256 × 896), and the two heads applied to the two halves of that state
  (256 × 256 each). Each block is stored whole by one store, so the block is the store's payload.
-/
import proofs.«124156_j85950885527647_1_alg».proof.Proof.Gen.KernelIdeal.Frame
import proofs.«124156_j85950885527647_1_alg».proof.Proof.BodyState

noncomputable section

open Idealize.ShloMosaic Idealize.ShloMosaic.ValueIdx

namespace Cert.Gru.Body

open Cert.KernelIdeal Cert.KernelIdeal.Gen Cert.Gru Cert.Gru.Layout

theorem hz : (![0, 0] : Fin 2 → Nat) = fun _ => 0 := funext fun a => by fin_cases a <;> rfl

section Point

variable (x0 : Vec Ideal S256x896 .f32) (x1 x2 x3 : Vec Ideal S256x1 .f32) (x4 : Vec Ideal S896x2688 .bf16)
  (x5 x6 x7 x8 x9 : Vec Ideal S1x1344 .f32) (x10 : Vec Ideal S448x448 .bf16) (x11 : Vec Ideal S1x448 .f32)
  (x12 : Vec Ideal S448x448 .bf16) (x13 : Vec Ideal S1x448 .f32) (x14 : Vec Ideal S448x256 .bf16) (x15 : Vec Ideal S1x256 .f32)
  (x16 : Vec Ideal S448x256 .bf16) (x17 : Vec Ideal S1x256 .f32) (x18 x19 x20 : Vec Ideal S1x896 .f32)

/-- The first half of the new state, as the first head reads it (narrowed to bf16: the identity here). -/
theorem half0_apply (p : Fin 256) (l : Fin 448) :
    k0_pay9 (F := Ideal) x0 (k0_pay3 x0 x4) (k0_pay4 x1 x2 x5 x6) (k0_pay5 x1 x2 x3 x7 x8 x9) (k0_pay6 x1 x2 x5 x6) (k0_pay7 x1 x2 x3 x7 x8 x9) x18 x19 x20 (ix2 p l)
      = hnew (Wb x4 x5 x6 x7 x8 x9 x10 x11 x12 x13 x14 x15 x16 x17 x18 x19 x20) (rb x0 x1 x2 x3 p) ⟨0 + l.val, by have := l.isLt; omega⟩ := by
  unfold k0_pay9
  rw [truncf_apply, slice2_axis1_eq]
  exact state_apply x0 x1 x2 x3 x4 x5 x6 x7 x8 x9 x10 x11 x12 x13 x14 x15 x16 x17 x18 x19 x20 p _

/-- The second half, as the second head reads it. -/
theorem half1_apply (p : Fin 256) (l : Fin 448) :
    k0_pay10 (F := Ideal) x0 (k0_pay3 x0 x4) (k0_pay4 x1 x2 x5 x6) (k0_pay5 x1 x2 x3 x7 x8 x9) (k0_pay6 x1 x2 x5 x6) (k0_pay7 x1 x2 x3 x7 x8 x9) x18 x19 x20 (ix2 p l)
      = hnew (Wb x4 x5 x6 x7 x8 x9 x10 x11 x12 x13 x14 x15 x16 x17 x18 x19 x20) (rb x0 x1 x2 x3 p) ⟨448 + l.val, by have := l.isLt; omega⟩ := by
  unfold k0_pay10
  rw [truncf_apply, slice2_axis1_eq]
  exact state_apply x0 x1 x2 x3 x4 x5 x6 x7 x8 x9 x10 x11 x12 x13 x14 x15 x16 x17 x18 x19 x20 p _

/-- THE STATE BLOCK at (p, j) is the gated cell of row `p` at column `j`. -/
theorem out21_apply (p : Fin 256) (j : Fin 896) :
    out0_21 (F := Ideal) x0 x1 x2 x3 x4 x5 x6 x7 x8 x9 x10 x11 x12 x13 x14 x15 x16 x17 x18 x19 x20 (ix2 p j) = hnew (Wb x4 x5 x6 x7 x8 x9 x10 x11 x12 x13 x14 x15 x16 x17 x18 x19 x20) (rb x0 x1 x2 x3 p) j := by
  unfold out0_21
  rw [View.canon_unit_zero hz]
  simp only [View.ld_unit_zero (S := S256x896) hz, View.ld_unit_zero (S := S256x1) hz, View.ld_unit_zero (S := S896x2688) hz, View.ld_unit_zero (S := S1x1344) hz, View.ld_unit_zero (S := S1x896) hz, View.ld_unit_zero (S := S448x448) hz, View.ld_unit_zero (S := S1x448) hz, View.ld_unit_zero (S := S448x256) hz, View.ld_unit_zero (S := S1x256) hz]
  exact state_apply x0 x1 x2 x3 x4 x5 x6 x7 x8 x9 x10 x11 x12 x13 x14 x15 x16 x17 x18 x19 x20 p j

/-- THE COARSE HEAD'S BLOCK at (p, n). -/
theorem out22_apply (p : Fin 256) (n : Fin 256) :
    out0_22 (F := Ideal) x0 x1 x2 x3 x4 x5 x6 x7 x8 x9 x10 x11 x12 x13 x14 x15 x16 x17 x18 x19 x20 (ix2 p n) = pct (Wb x4 x5 x6 x7 x8 x9 x10 x11 x12 x13 x14 x15 x16 x17 x18 x19 x20) (rb x0 x1 x2 x3 p) n := by
  unfold out0_22
  rw [View.canon_unit_zero hz]
  simp only [View.ld_unit_zero (S := S256x896) hz, View.ld_unit_zero (S := S256x1) hz, View.ld_unit_zero (S := S896x2688) hz, View.ld_unit_zero (S := S1x1344) hz, View.ld_unit_zero (S := S1x896) hz, View.ld_unit_zero (S := S448x448) hz, View.ld_unit_zero (S := S1x448) hz, View.ld_unit_zero (S := S448x256) hz, View.ld_unit_zero (S := S1x256) hz]
  rw [pay1_apply]
  simp only [half0_apply x0 x1 x2 x3 x4 x5 x6 x7 x8 x9 x10 x11 x12 x13 x14 x15 x16 x17 x18 x19 x20]
  rfl

/-- THE FINE HEAD'S BLOCK at (p, n). -/
theorem out23_apply (p : Fin 256) (n : Fin 256) :
    out0_23 (F := Ideal) x0 x1 x2 x3 x4 x5 x6 x7 x8 x9 x10 x11 x12 x13 x14 x15 x16 x17 x18 x19 x20 (ix2 p n) = pft (Wb x4 x5 x6 x7 x8 x9 x10 x11 x12 x13 x14 x15 x16 x17 x18 x19 x20) (rb x0 x1 x2 x3 p) n := by
  unfold out0_23
  rw [View.canon_unit_zero hz]
  simp only [View.ld_unit_zero (S := S256x896) hz, View.ld_unit_zero (S := S256x1) hz, View.ld_unit_zero (S := S896x2688) hz, View.ld_unit_zero (S := S1x1344) hz, View.ld_unit_zero (S := S1x896) hz, View.ld_unit_zero (S := S448x448) hz, View.ld_unit_zero (S := S1x448) hz, View.ld_unit_zero (S := S448x256) hz, View.ld_unit_zero (S := S1x256) hz]
  rw [pay2_apply]
  simp only [half1_apply x0 x1 x2 x3 x4 x5 x6 x7 x8 x9 x10 x11 x12 x13 x14 x15 x16 x17 x18 x19 x20]
  rfl

end Point

end Cert.Gru.Body

end
-- ==== Proof.BlockReads.lean ====
import proofs.«124156_j85950885527647_1_alg».proof.Proof.Gen.KernelIdeal.Frame
import proofs.«124156_j85950885527647_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

/-! # What each input block holds, in terms of the argument arrays

At grid point t the four batch inputs' blocks are rows 256·t … 256·t + 255 of the hidden-state array and of the three
scalar columns. Every other input block is a whole array that the program computed from an argument before the grid
runs: a weight matrix transposed (and narrowed, which is the identity on extended reals), one column of an input
matrix laid out as a row, or a bias vector reshaped to one row. So a grid point's blocks hold exactly the row and the
weights that the argument arrays hold. -/

noncomputable section

namespace Cert.Gru.Blocks

open Cert.KernelIdeal Cert.KernelIdeal.Gen Idealize.ShloMosaic Idealize.ShloMosaic.TcCoe Idealize.SL.Sem Idealize.ShloMosaic.ValueIdx Cert.Gru

variable (m : (ℓ : Loc nD τ sig) → Buf (Elt Ideal) ℓ)

/-! ## The batch inputs: row block t -/

/-- Window 0's block at point t is rows 256·t … 256·t + 255 of the hidden-state array. -/
theorem blk0_apply (c : Dev nD) (t : Fin cfg0.N) (p : Fin 256) (k : Fin 896) (b : Fin 16384) (hb : b.val = 256 * t.val + p.val) :
    (iblk m c 0 t : Vec Ideal S256x896 .f32) (ix2 p k) = ((m ((c : Thread nD τ).loc main_arg0)) : S16384x896.Idx → EReal) (ix2 b k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = _
  rw [V_main_arg0]
  congr 1
  funext a
  apply Fin.ext
  match a with
  | ⟨0, _⟩ => show win0_0.index t 0 * 256 + 1 * p.val = b.val; rw [hi.1, hb]; omega
  | ⟨1, _⟩ => show win0_0.index t 1 * 896 + 1 * k.val = k.val; rw [hi.2]; omega

/-- Window 1's block at point t is rows 256·t … 256·t + 255 of the first scalar column. -/
theorem blk1_apply (c : Dev nD) (t : Fin cfg0.N) (p : Fin 256) (b : Fin 16384) (hb : b.val = 256 * t.val + p.val) :
    (iblk m c 1 t : Vec Ideal S256x1 .f32) (ix2 p 0) = ((m ((c : Thread nD τ).loc main_arg1)) : S16384x1.Idx → EReal) (ix2 b 0) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_arg1 _ = _
  rw [V_main_arg1]
  congr 1
  funext a
  apply Fin.ext
  match a with
  | ⟨0, _⟩ => show win0_1.index t 0 * 256 + 1 * p.val = b.val; rw [hi.1, hb]; omega
  | ⟨1, _⟩ => show win0_1.index t 1 * 1 + 1 * (0 : Fin 1).val = (0 : Fin 1).val; rw [hi.2]; rfl

/-- Window 2's block at point t is rows 256·t … 256·t + 255 of the second scalar column. -/
theorem blk2_apply (c : Dev nD) (t : Fin cfg0.N) (p : Fin 256) (b : Fin 16384) (hb : b.val = 256 * t.val + p.val) :
    (iblk m c 2 t : Vec Ideal S256x1 .f32) (ix2 p 0) = ((m ((c : Thread nD τ).loc main_arg2)) : S16384x1.Idx → EReal) (ix2 b 0) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_arg2 _ = _
  rw [V_main_arg2]
  congr 1
  funext a
  apply Fin.ext
  match a with
  | ⟨0, _⟩ => show win0_2.index t 0 * 256 + 1 * p.val = b.val; rw [hi.1, hb]; omega
  | ⟨1, _⟩ => show win0_2.index t 1 * 1 + 1 * (0 : Fin 1).val = (0 : Fin 1).val; rw [hi.2]; rfl

/-- Window 3's block at point t is rows 256·t … 256·t + 255 of the third scalar column. -/
theorem blk3_apply (c : Dev nD) (t : Fin cfg0.N) (p : Fin 256) (b : Fin 16384) (hb : b.val = 256 * t.val + p.val) :
    (iblk m c 3 t : Vec Ideal S256x1 .f32) (ix2 p 0) = ((m ((c : Thread nD τ).loc main_arg3)) : S16384x1.Idx → EReal) (ix2 b 0) := by
  have hi : win0_3.index t 0 = t.val ∧ win0_3.index t 1 = 0 :=
    (by decide +kernel : ∀ t : Fin grid0.N, win0_3.index t 0 = t.val ∧ win0_3.index t 1 = 0) t
  unfold iblk
  rw [View.read_apply]
  show V m c main_arg3 _ = _
  rw [V_main_arg3]
  congr 1
  funext a
  apply Fin.ext
  match a with
  | ⟨0, _⟩ => show win0_3.index t 0 * 256 + 1 * p.val = b.val; rw [hi.1, hb]; omega
  | ⟨1, _⟩ => show win0_3.index t 1 * 1 + 1 * (0 : Fin 1).val = (0 : Fin 1).val; rw [hi.2]; rfl

/-! ## The weight matrices: transposed whole -/

/-- The array window 4 reads: the recurrent matrix, transposed (the narrowing to bf16 is the identity on extended reals). -/
theorem V_main_v1 (c : Dev nD) : @Eq (FVec Ideal S896x2688 .bf16) (V m c main_v1)
    (truncf .bf16 (transpose S896x2688 [1, 0] ((m ((c : Thread nD τ).loc main_arg4)) : FVec Ideal S2688x896 .f32) transposes_S2688x896_S896x2688_1_0) bitsLt_bf16_f32) := by
  dsimp only [Gen.V, Gen.hostOps0]
  after_results

/-- Window 4's block is the whole transposed matrix: entry (k, n) is the argument's entry (n, k). -/
theorem blk4_apply (c : Dev nD) (t : Fin cfg0.N) (k : Fin 896) (n : Fin 2688) :
    (iblk m c 4 t : Vec Ideal S896x2688 .bf16) (ix2 k n) = ((m ((c : Thread nD τ).loc main_arg4)) : S2688x896.Idx → EReal) (ix2 n k) := by
  have hi : win0_4.index t 0 = 0 ∧ win0_4.index t 1 = 0 :=
    (by decide +kernel : ∀ t : Fin grid0.N, win0_4.index t 0 = 0 ∧ win0_4.index t 1 = 0) t
  unfold iblk
  rw [View.read_apply]
  show V m c main_v1 _ = _
  refine (congrArg (V m c main_v1) (?_ : _ = (ix2 k n : S896x2688.Idx))).trans ?_
  · funext a
    apply Fin.ext
    match a with
    | ⟨0, _⟩ => show win0_4.index t 0 * 896 + 1 * k.val = k.val; rw [hi.1]; omega
    | ⟨1, _⟩ => show win0_4.index t 1 * 2688 + 1 * n.val = n.val; rw [hi.2]; omega
  · rw [V_main_v1, truncf_apply]
    exact transpose_ix2_apply _ _ k n

/-- The array window 10 reads: the coarse head's first matrix, transposed (the narrowing to bf16 is the identity on extended reals). -/
theorem V_main_v10 (c : Dev nD) : @Eq (FVec Ideal S448x448 .bf16) (V m c main_v10)
    (truncf .bf16 (transpose S448x448 [1, 0] ((m ((c : Thread nD τ).loc main_arg7)) : FVec Ideal S448x448 .f32) transposes_S448x448_S448x448_1_0) bitsLt_bf16_f32) := by
  dsimp only [Gen.V, Gen.hostOps0]
  after_results

/-- Window 10's block is the whole transposed matrix: entry (k, n) is the argument's entry (n, k). -/
theorem blk10_apply (c : Dev nD) (t : Fin cfg0.N) (k : Fin 448) (n : Fin 448) :
    (iblk m c 10 t : Vec Ideal S448x448 .bf16) (ix2 k n) = ((m ((c : Thread nD τ).loc main_arg7)) : S448x448.Idx → EReal) (ix2 n k) := by
  have hi : win0_10.index t 0 = 0 ∧ win0_10.index t 1 = 0 :=
    (by decide +kernel : ∀ t : Fin grid0.N, win0_10.index t 0 = 0 ∧ win0_10.index t 1 = 0) t
  unfold iblk
  rw [View.read_apply]
  show V m c main_v10 _ = _
  refine (congrArg (V m c main_v10) (?_ : _ = (ix2 k n : S448x448.Idx))).trans ?_
  · funext a
    apply Fin.ext
    match a with
    | ⟨0, _⟩ => show win0_10.index t 0 * 448 + 1 * k.val = k.val; rw [hi.1]; omega
    | ⟨1, _⟩ => show win0_10.index t 1 * 448 + 1 * n.val = n.val; rw [hi.2]; omega
  · rw [V_main_v10, truncf_apply]
    exact transpose_ix2_apply _ _ k n

/-- The array window 12 reads: the fine head's first matrix, transposed (the narrowing to bf16 is the identity on extended reals). -/
theorem V_main_v12 (c : Dev nD) : @Eq (FVec Ideal S448x448 .bf16) (V m c main_v12)
    (truncf .bf16 (transpose S448x448 [1, 0] ((m ((c : Thread nD τ).loc main_arg9)) : FVec Ideal S448x448 .f32) transposes_S448x448_S448x448_1_0) bitsLt_bf16_f32) := by
  dsimp only [Gen.V, Gen.hostOps0]
  after_results

/-- Window 12's block is the whole transposed matrix: entry (k, n) is the argument's entry (n, k). -/
theorem blk12_apply (c : Dev nD) (t : Fin cfg0.N) (k : Fin 448) (n : Fin 448) :
    (iblk m c 12 t : Vec Ideal S448x448 .bf16) (ix2 k n) = ((m ((c : Thread nD τ).loc main_arg9)) : S448x448.Idx → EReal) (ix2 n k) := by
  have hi : win0_12.index t 0 = 0 ∧ win0_12.index t 1 = 0 :=
    (by decide +kernel : ∀ t : Fin grid0.N, win0_12.index t 0 = 0 ∧ win0_12.index t 1 = 0) t
  unfold iblk
  rw [View.read_apply]
  show V m c main_v12 _ = _
  refine (congrArg (V m c main_v12) (?_ : _ = (ix2 k n : S448x448.Idx))).trans ?_
  · funext a
    apply Fin.ext
    match a with
    | ⟨0, _⟩ => show win0_12.index t 0 * 448 + 1 * k.val = k.val; rw [hi.1]; omega
    | ⟨1, _⟩ => show win0_12.index t 1 * 448 + 1 * n.val = n.val; rw [hi.2]; omega
  · rw [V_main_v12, truncf_apply]
    exact transpose_ix2_apply _ _ k n

/-- The array window 14 reads: the coarse head's second matrix, transposed (the narrowing to bf16 is the identity on extended reals). -/
theorem V_main_v14 (c : Dev nD) : @Eq (FVec Ideal S448x256 .bf16) (V m c main_v14)
    (truncf .bf16 (transpose S448x256 [1, 0] ((m ((c : Thread nD τ).loc main_arg11)) : FVec Ideal S256x448 .f32) transposes_S256x448_S448x256_1_0) bitsLt_bf16_f32) := by
  dsimp only [Gen.V, Gen.hostOps0]
  after_results

/-- Window 14's block is the whole transposed matrix: entry (k, n) is the argument's entry (n, k). -/
theorem blk14_apply (c : Dev nD) (t : Fin cfg0.N) (k : Fin 448) (n : Fin 256) :
    (iblk m c 14 t : Vec Ideal S448x256 .bf16) (ix2 k n) = ((m ((c : Thread nD τ).loc main_arg11)) : S256x448.Idx → EReal) (ix2 n k) := by
  have hi : win0_14.index t 0 = 0 ∧ win0_14.index t 1 = 0 :=
    (by decide +kernel : ∀ t : Fin grid0.N, win0_14.index t 0 = 0 ∧ win0_14.index t 1 = 0) t
  unfold iblk
  rw [View.read_apply]
  show V m c main_v14 _ = _
  refine (congrArg (V m c main_v14) (?_ : _ = (ix2 k n : S448x256.Idx))).trans ?_
  · funext a
    apply Fin.ext
    match a with
    | ⟨0, _⟩ => show win0_14.index t 0 * 448 + 1 * k.val = k.val; rw [hi.1]; omega
    | ⟨1, _⟩ => show win0_14.index t 1 * 256 + 1 * n.val = n.val; rw [hi.2]; omega
  · rw [V_main_v14, truncf_apply]
    exact transpose_ix2_apply _ _ k n

/-- The array window 16 reads: the fine head's second matrix, transposed (the narrowing to bf16 is the identity on extended reals). -/
theorem V_main_v16 (c : Dev nD) : @Eq (FVec Ideal S448x256 .bf16) (V m c main_v16)
    (truncf .bf16 (transpose S448x256 [1, 0] ((m ((c : Thread nD τ).loc main_arg13)) : FVec Ideal S256x448 .f32) transposes_S256x448_S448x256_1_0) bitsLt_bf16_f32) := by
  dsimp only [Gen.V, Gen.hostOps0]
  after_results

/-- Window 16's block is the whole transposed matrix: entry (k, n) is the argument's entry (n, k). -/
theorem blk16_apply (c : Dev nD) (t : Fin cfg0.N) (k : Fin 448) (n : Fin 256) :
    (iblk m c 16 t : Vec Ideal S448x256 .bf16) (ix2 k n) = ((m ((c : Thread nD τ).loc main_arg13)) : S256x448.Idx → EReal) (ix2 n k) := by
  have hi : win0_16.index t 0 = 0 ∧ win0_16.index t 1 = 0 :=
    (by decide +kernel : ∀ t : Fin grid0.N, win0_16.index t 0 = 0 ∧ win0_16.index t 1 = 0) t
  unfold iblk
  rw [View.read_apply]
  show V m c main_v16 _ = _
  refine (congrArg (V m c main_v16) (?_ : _ = (ix2 k n : S448x256.Idx))).trans ?_
  · funext a
    apply Fin.ext
    match a with
    | ⟨0, _⟩ => show win0_16.index t 0 * 448 + 1 * k.val = k.val; rw [hi.1]; omega
    | ⟨1, _⟩ => show win0_16.index t 1 * 256 + 1 * n.val = n.val; rw [hi.2]; omega
  · rw [V_main_v16, truncf_apply]
    exact transpose_ix2_apply _ _ k n

/-! ## The input matrices' columns: one row each -/

/-- The array window 5 reads: column 0 of the coarse input matrix, as row 0 of the transposed matrix. -/
theorem V_main_v4 (c : Dev nD) : @Eq (FVec Ideal S1x1344 .f32) (V m c main_v4)
    (extractStridedSlice S1x1344 ![0, 0] (transpose S2x1344 [1, 0] ((m ((c : Thread nD τ).loc main_arg5)) : FVec Ideal S1344x2 .f32) transposes_S1344x2_S2x1344_1_0) slices_S2x1344_S1x1344_0_0) := by
  dsimp only [Gen.V, Gen.hostOps0]
  after_results

/-- Window 5's block is that whole row: entry (0, n) is the argument's entry (n, 0). -/
theorem blk5_apply (c : Dev nD) (t : Fin cfg0.N) (n : Fin 1344) :
    (iblk m c 5 t : Vec Ideal S1x1344 .f32) (ix2 0 n) = ((m ((c : Thread nD τ).loc main_arg5)) : S1344x2.Idx → EReal) (ix2 n 0) := by
  have hi : win0_5.index t 0 = 0 ∧ win0_5.index t 1 = 0 :=
    (by decide +kernel : ∀ t : Fin grid0.N, win0_5.index t 0 = 0 ∧ win0_5.index t 1 = 0) t
  unfold iblk
  rw [View.read_apply]
  show V m c main_v4 _ = _
  refine (congrArg (V m c main_v4) (?_ : _ = (ix2 0 n : S1x1344.Idx))).trans ?_
  · funext a
    apply Fin.ext
    match a with
    | ⟨0, _⟩ => show win0_5.index t 0 * 1 + 1 * (0 : Fin 1).val = (0 : Fin 1).val; rw [hi.1]; rfl
    | ⟨1, _⟩ => show win0_5.index t 1 * 1344 + 1 * n.val = n.val; rw [hi.2]; omega
  · rw [V_main_v4]
    refine (slice2_axis0_apply 0 _ slices_S2x1344_S1x1344_0_0 (0 : Fin 1) n (0 : Fin 2) rfl).trans ?_
    exact transpose_ix2_apply _ _ (0 : Fin 2) n

/-- The array window 6 reads: column 1 of the coarse input matrix, as row 1 of the transposed matrix. -/
theorem V_main_v5 (c : Dev nD) : @Eq (FVec Ideal S1x1344 .f32) (V m c main_v5)
    (extractStridedSlice S1x1344 ![1, 0] (transpose S2x1344 [1, 0] ((m ((c : Thread nD τ).loc main_arg5)) : FVec Ideal S1344x2 .f32) transposes_S1344x2_S2x1344_1_0) slices_S2x1344_S1x1344_1_0) := by
  dsimp only [Gen.V, Gen.hostOps0]
  after_results

/-- Window 6's block is that whole row: entry (0, n) is the argument's entry (n, 1). -/
theorem blk6_apply (c : Dev nD) (t : Fin cfg0.N) (n : Fin 1344) :
    (iblk m c 6 t : Vec Ideal S1x1344 .f32) (ix2 0 n) = ((m ((c : Thread nD τ).loc main_arg5)) : S1344x2.Idx → EReal) (ix2 n 1) := by
  have hi : win0_6.index t 0 = 0 ∧ win0_6.index t 1 = 0 :=
    (by decide +kernel : ∀ t : Fin grid0.N, win0_6.index t 0 = 0 ∧ win0_6.index t 1 = 0) t
  unfold iblk
  rw [View.read_apply]
  show V m c main_v5 _ = _
  refine (congrArg (V m c main_v5) (?_ : _ = (ix2 0 n : S1x1344.Idx))).trans ?_
  · funext a
    apply Fin.ext
    match a with
    | ⟨0, _⟩ => show win0_6.index t 0 * 1 + 1 * (0 : Fin 1).val = (0 : Fin 1).val; rw [hi.1]; rfl
    | ⟨1, _⟩ => show win0_6.index t 1 * 1344 + 1 * n.val = n.val; rw [hi.2]; omega
  · rw [V_main_v5]
    refine (slice2_axis0_apply 1 _ slices_S2x1344_S1x1344_1_0 (0 : Fin 1) n (1 : Fin 2) rfl).trans ?_
    exact transpose_ix2_apply _ _ (1 : Fin 2) n

/-- The array window 7 reads: column 0 of the fine input matrix, as row 0 of the transposed matrix. -/
theorem V_main_v6 (c : Dev nD) : @Eq (FVec Ideal S1x1344 .f32) (V m c main_v6)
    (extractStridedSlice S1x1344 ![0, 0] (transpose S3x1344 [1, 0] ((m ((c : Thread nD τ).loc main_arg6)) : FVec Ideal S1344x3 .f32) transposes_S1344x3_S3x1344_1_0) slices_S3x1344_S1x1344_0_0) := by
  dsimp only [Gen.V, Gen.hostOps0]
  after_results

/-- Window 7's block is that whole row: entry (0, n) is the argument's entry (n, 0). -/
theorem blk7_apply (c : Dev nD) (t : Fin cfg0.N) (n : Fin 1344) :
    (iblk m c 7 t : Vec Ideal S1x1344 .f32) (ix2 0 n) = ((m ((c : Thread nD τ).loc main_arg6)) : S1344x3.Idx → EReal) (ix2 n 0) := by
  have hi : win0_7.index t 0 = 0 ∧ win0_7.index t 1 = 0 :=
    (by decide +kernel : ∀ t : Fin grid0.N, win0_7.index t 0 = 0 ∧ win0_7.index t 1 = 0) t
  unfold iblk
  rw [View.read_apply]
  show V m c main_v6 _ = _
  refine (congrArg (V m c main_v6) (?_ : _ = (ix2 0 n : S1x1344.Idx))).trans ?_
  · funext a
    apply Fin.ext
    match a with
    | ⟨0, _⟩ => show win0_7.index t 0 * 1 + 1 * (0 : Fin 1).val = (0 : Fin 1).val; rw [hi.1]; rfl
    | ⟨1, _⟩ => show win0_7.index t 1 * 1344 + 1 * n.val = n.val; rw [hi.2]; omega
  · rw [V_main_v6]
    refine (slice2_axis0_apply 0 _ slices_S3x1344_S1x1344_0_0 (0 : Fin 1) n (0 : Fin 3) rfl).trans ?_
    exact transpose_ix2_apply _ _ (0 : Fin 3) n

/-- The array window 8 reads: column 1 of the fine input matrix, as row 1 of the transposed matrix. -/
theorem V_main_v7 (c : Dev nD) : @Eq (FVec Ideal S1x1344 .f32) (V m c main_v7)
    (extractStridedSlice S1x1344 ![1, 0] (transpose S3x1344 [1, 0] ((m ((c : Thread nD τ).loc main_arg6)) : FVec Ideal S1344x3 .f32) transposes_S1344x3_S3x1344_1_0) slices_S3x1344_S1x1344_1_0) := by
  dsimp only [Gen.V, Gen.hostOps0]
  after_results

/-- Window 8's block is that whole row: entry (0, n) is the argument's entry (n, 1). -/
theorem blk8_apply (c : Dev nD) (t : Fin cfg0.N) (n : Fin 1344) :
    (iblk m c 8 t : Vec Ideal S1x1344 .f32) (ix2 0 n) = ((m ((c : Thread nD τ).loc main_arg6)) : S1344x3.Idx → EReal) (ix2 n 1) := by
  have hi : win0_8.index t 0 = 0 ∧ win0_8.index t 1 = 0 :=
    (by decide +kernel : ∀ t : Fin grid0.N, win0_8.index t 0 = 0 ∧ win0_8.index t 1 = 0) t
  unfold iblk
  rw [View.read_apply]
  show V m c main_v7 _ = _
  refine (congrArg (V m c main_v7) (?_ : _ = (ix2 0 n : S1x1344.Idx))).trans ?_
  · funext a
    apply Fin.ext
    match a with
    | ⟨0, _⟩ => show win0_8.index t 0 * 1 + 1 * (0 : Fin 1).val = (0 : Fin 1).val; rw [hi.1]; rfl
    | ⟨1, _⟩ => show win0_8.index t 1 * 1344 + 1 * n.val = n.val; rw [hi.2]; omega
  · rw [V_main_v7]
    refine (slice2_axis0_apply 1 _ slices_S3x1344_S1x1344_1_0 (0 : Fin 1) n (1 : Fin 3) rfl).trans ?_
    exact transpose_ix2_apply _ _ (1 : Fin 3) n

/-- The array window 9 reads: column 2 of the fine input matrix, as row 2 of the transposed matrix. -/
theorem V_main_v8 (c : Dev nD) : @Eq (FVec Ideal S1x1344 .f32) (V m c main_v8)
    (extractStridedSlice S1x1344 ![2, 0] (transpose S3x1344 [1, 0] ((m ((c : Thread nD τ).loc main_arg6)) : FVec Ideal S1344x3 .f32) transposes_S1344x3_S3x1344_1_0) slices_S3x1344_S1x1344_2_0) := by
  dsimp only [Gen.V, Gen.hostOps0]
  after_results

/-- Window 9's block is that whole row: entry (0, n) is the argument's entry (n, 2). -/
theorem blk9_apply (c : Dev nD) (t : Fin cfg0.N) (n : Fin 1344) :
    (iblk m c 9 t : Vec Ideal S1x1344 .f32) (ix2 0 n) = ((m ((c : Thread nD τ).loc main_arg6)) : S1344x3.Idx → EReal) (ix2 n 2) := by
  have hi : win0_9.index t 0 = 0 ∧ win0_9.index t 1 = 0 :=
    (by decide +kernel : ∀ t : Fin grid0.N, win0_9.index t 0 = 0 ∧ win0_9.index t 1 = 0) t
  unfold iblk
  rw [View.read_apply]
  show V m c main_v8 _ = _
  refine (congrArg (V m c main_v8) (?_ : _ = (ix2 0 n : S1x1344.Idx))).trans ?_
  · funext a
    apply Fin.ext
    match a with
    | ⟨0, _⟩ => show win0_9.index t 0 * 1 + 1 * (0 : Fin 1).val = (0 : Fin 1).val; rw [hi.1]; rfl
    | ⟨1, _⟩ => show win0_9.index t 1 * 1344 + 1 * n.val = n.val; rw [hi.2]; omega
  · rw [V_main_v8]
    refine (slice2_axis0_apply 2 _ slices_S3x1344_S1x1344_2_0 (0 : Fin 1) n (2 : Fin 3) rfl).trans ?_
    exact transpose_ix2_apply _ _ (2 : Fin 3) n

/-! ## The biases: one row each -/

/-- The array window 11 reads: the coarse head's first bias, reshaped to one row. -/
theorem V_main_v17 (c : Dev nD) : @Eq (FVec Ideal S1x448 .f32) (V m c main_v17)
    (shapeCast S1x448 ((m ((c : Thread nD τ).loc main_arg8)) : FVec Ideal S448 .f32) shapeCasts_S448_S1x448) := by
  dsimp only [Gen.V, Gen.hostOps0]
  after_results
  rfl

/-- Window 11's block is that whole row: entry (0, j) is the argument's entry j. -/
theorem blk11_apply (c : Dev nD) (t : Fin cfg0.N) (j : Fin 448) :
    (iblk m c 11 t : Vec Ideal S1x448 .f32) (ix2 0 j) = ((m ((c : Thread nD τ).loc main_arg8)) : S448.Idx → EReal) (ix1 j) := by
  have hi : win0_11.index t 0 = 0 ∧ win0_11.index t 1 = 0 :=
    (by decide +kernel : ∀ t : Fin grid0.N, win0_11.index t 0 = 0 ∧ win0_11.index t 1 = 0) t
  unfold iblk
  rw [View.read_apply]
  show V m c main_v17 _ = _
  refine (congrArg (V m c main_v17) (?_ : _ = (ix2 0 j : S1x448.Idx))).trans ?_
  · funext a
    apply Fin.ext
    match a with
    | ⟨0, _⟩ => show win0_11.index t 0 * 1 + 1 * (0 : Fin 1).val = (0 : Fin 1).val; rw [hi.1]; rfl
    | ⟨1, _⟩ => show win0_11.index t 1 * 448 + 1 * j.val = j.val; rw [hi.2]; omega
  · rw [V_main_v17]
    exact shapeCast_a_1a_apply _ _ (0 : Fin 1) j

/-- The array window 13 reads: the fine head's first bias, reshaped to one row. -/
theorem V_main_v18 (c : Dev nD) : @Eq (FVec Ideal S1x448 .f32) (V m c main_v18)
    (shapeCast S1x448 ((m ((c : Thread nD τ).loc main_arg10)) : FVec Ideal S448 .f32) shapeCasts_S448_S1x448) := by
  dsimp only [Gen.V, Gen.hostOps0]
  after_results
  rfl

/-- Window 13's block is that whole row: entry (0, j) is the argument's entry j. -/
theorem blk13_apply (c : Dev nD) (t : Fin cfg0.N) (j : Fin 448) :
    (iblk m c 13 t : Vec Ideal S1x448 .f32) (ix2 0 j) = ((m ((c : Thread nD τ).loc main_arg10)) : S448.Idx → EReal) (ix1 j) := by
  have hi : win0_13.index t 0 = 0 ∧ win0_13.index t 1 = 0 :=
    (by decide +kernel : ∀ t : Fin grid0.N, win0_13.index t 0 = 0 ∧ win0_13.index t 1 = 0) t
  unfold iblk
  rw [View.read_apply]
  show V m c main_v18 _ = _
  refine (congrArg (V m c main_v18) (?_ : _ = (ix2 0 j : S1x448.Idx))).trans ?_
  · funext a
    apply Fin.ext
    match a with
    | ⟨0, _⟩ => show win0_13.index t 0 * 1 + 1 * (0 : Fin 1).val = (0 : Fin 1).val; rw [hi.1]; rfl
    | ⟨1, _⟩ => show win0_13.index t 1 * 448 + 1 * j.val = j.val; rw [hi.2]; omega
  · rw [V_main_v18]
    exact shapeCast_a_1a_apply _ _ (0 : Fin 1) j

/-- The array window 15 reads: the coarse head's second bias, reshaped to one row. -/
theorem V_main_v19 (c : Dev nD) : @Eq (FVec Ideal S1x256 .f32) (V m c main_v19)
    (shapeCast S1x256 ((m ((c : Thread nD τ).loc main_arg12)) : FVec Ideal S256 .f32) shapeCasts_S256_S1x256) := by
  dsimp only [Gen.V, Gen.hostOps0]
  after_results
  rfl

/-- Window 15's block is that whole row: entry (0, j) is the argument's entry j. -/
theorem blk15_apply (c : Dev nD) (t : Fin cfg0.N) (j : Fin 256) :
    (iblk m c 15 t : Vec Ideal S1x256 .f32) (ix2 0 j) = ((m ((c : Thread nD τ).loc main_arg12)) : S256.Idx → EReal) (ix1 j) := by
  have hi : win0_15.index t 0 = 0 ∧ win0_15.index t 1 = 0 :=
    (by decide +kernel : ∀ t : Fin grid0.N, win0_15.index t 0 = 0 ∧ win0_15.index t 1 = 0) t
  unfold iblk
  rw [View.read_apply]
  show V m c main_v19 _ = _
  refine (congrArg (V m c main_v19) (?_ : _ = (ix2 0 j : S1x256.Idx))).trans ?_
  · funext a
    apply Fin.ext
    match a with
    | ⟨0, _⟩ => show win0_15.index t 0 * 1 + 1 * (0 : Fin 1).val = (0 : Fin 1).val; rw [hi.1]; rfl
    | ⟨1, _⟩ => show win0_15.index t 1 * 256 + 1 * j.val = j.val; rw [hi.2]; omega
  · rw [V_main_v19]
    exact shapeCast_a_1a_apply _ _ (0 : Fin 1) j

/-- The array window 17 reads: the fine head's second bias, reshaped to one row. -/
theorem V_main_v20 (c : Dev nD) : @Eq (FVec Ideal S1x256 .f32) (V m c main_v20)
    (shapeCast S1x256 ((m ((c : Thread nD τ).loc main_arg14)) : FVec Ideal S256 .f32) shapeCasts_S256_S1x256) := by
  dsimp only [Gen.V, Gen.hostOps0]
  after_results
  rfl

/-- Window 17's block is that whole row: entry (0, j) is the argument's entry j. -/
theorem blk17_apply (c : Dev nD) (t : Fin cfg0.N) (j : Fin 256) :
    (iblk m c 17 t : Vec Ideal S1x256 .f32) (ix2 0 j) = ((m ((c : Thread nD τ).loc main_arg14)) : S256.Idx → EReal) (ix1 j) := by
  have hi : win0_17.index t 0 = 0 ∧ win0_17.index t 1 = 0 :=
    (by decide +kernel : ∀ t : Fin grid0.N, win0_17.index t 0 = 0 ∧ win0_17.index t 1 = 0) t
  unfold iblk
  rw [View.read_apply]
  show V m c main_v20 _ = _
  refine (congrArg (V m c main_v20) (?_ : _ = (ix2 0 j : S1x256.Idx))).trans ?_
  · funext a
    apply Fin.ext
    match a with
    | ⟨0, _⟩ => show win0_17.index t 0 * 1 + 1 * (0 : Fin 1).val = (0 : Fin 1).val; rw [hi.1]; rfl
    | ⟨1, _⟩ => show win0_17.index t 1 * 256 + 1 * j.val = j.val; rw [hi.2]; omega
  · rw [V_main_v20]
    exact shapeCast_a_1a_apply _ _ (0 : Fin 1) j

/-- The array window 18 reads: the update gate's bias, reshaped to one row. -/
theorem V_main_v21 (c : Dev nD) : @Eq (FVec Ideal S1x896 .f32) (V m c main_v21)
    (shapeCast S1x896 ((m ((c : Thread nD τ).loc main_arg15)) : FVec Ideal S896 .f32) shapeCasts_S896_S1x896) := by
  dsimp only [Gen.V, Gen.hostOps0]
  after_results
  rfl

/-- Window 18's block is that whole row: entry (0, j) is the argument's entry j. -/
theorem blk18_apply (c : Dev nD) (t : Fin cfg0.N) (j : Fin 896) :
    (iblk m c 18 t : Vec Ideal S1x896 .f32) (ix2 0 j) = ((m ((c : Thread nD τ).loc main_arg15)) : S896.Idx → EReal) (ix1 j) := by
  have hi : win0_18.index t 0 = 0 ∧ win0_18.index t 1 = 0 :=
    (by decide +kernel : ∀ t : Fin grid0.N, win0_18.index t 0 = 0 ∧ win0_18.index t 1 = 0) t
  unfold iblk
  rw [View.read_apply]
  show V m c main_v21 _ = _
  refine (congrArg (V m c main_v21) (?_ : _ = (ix2 0 j : S1x896.Idx))).trans ?_
  · funext a
    apply Fin.ext
    match a with
    | ⟨0, _⟩ => show win0_18.index t 0 * 1 + 1 * (0 : Fin 1).val = (0 : Fin 1).val; rw [hi.1]; rfl
    | ⟨1, _⟩ => show win0_18.index t 1 * 896 + 1 * j.val = j.val; rw [hi.2]; omega
  · rw [V_main_v21]
    exact shapeCast_a_1a_apply _ _ (0 : Fin 1) j

/-- The array window 19 reads: the reset gate's bias, reshaped to one row. -/
theorem V_main_v22 (c : Dev nD) : @Eq (FVec Ideal S1x896 .f32) (V m c main_v22)
    (shapeCast S1x896 ((m ((c : Thread nD τ).loc main_arg16)) : FVec Ideal S896 .f32) shapeCasts_S896_S1x896) := by
  dsimp only [Gen.V, Gen.hostOps0]
  after_results
  rfl

/-- Window 19's block is that whole row: entry (0, j) is the argument's entry j. -/
theorem blk19_apply (c : Dev nD) (t : Fin cfg0.N) (j : Fin 896) :
    (iblk m c 19 t : Vec Ideal S1x896 .f32) (ix2 0 j) = ((m ((c : Thread nD τ).loc main_arg16)) : S896.Idx → EReal) (ix1 j) := by
  have hi : win0_19.index t 0 = 0 ∧ win0_19.index t 1 = 0 :=
    (by decide +kernel : ∀ t : Fin grid0.N, win0_19.index t 0 = 0 ∧ win0_19.index t 1 = 0) t
  unfold iblk
  rw [View.read_apply]
  show V m c main_v22 _ = _
  refine (congrArg (V m c main_v22) (?_ : _ = (ix2 0 j : S1x896.Idx))).trans ?_
  · funext a
    apply Fin.ext
    match a with
    | ⟨0, _⟩ => show win0_19.index t 0 * 1 + 1 * (0 : Fin 1).val = (0 : Fin 1).val; rw [hi.1]; rfl
    | ⟨1, _⟩ => show win0_19.index t 1 * 896 + 1 * j.val = j.val; rw [hi.2]; omega
  · rw [V_main_v22]
    exact shapeCast_a_1a_apply _ _ (0 : Fin 1) j

/-- The array window 20 reads: the candidate's bias, reshaped to one row. -/
theorem V_main_v23 (c : Dev nD) : @Eq (FVec Ideal S1x896 .f32) (V m c main_v23)
    (shapeCast S1x896 ((m ((c : Thread nD τ).loc main_arg17)) : FVec Ideal S896 .f32) shapeCasts_S896_S1x896) := by
  dsimp only [Gen.V, Gen.hostOps0]
  after_results
  rfl

/-- Window 20's block is that whole row: entry (0, j) is the argument's entry j. -/
theorem blk20_apply (c : Dev nD) (t : Fin cfg0.N) (j : Fin 896) :
    (iblk m c 20 t : Vec Ideal S1x896 .f32) (ix2 0 j) = ((m ((c : Thread nD τ).loc main_arg17)) : S896.Idx → EReal) (ix1 j) := by
  have hi : win0_20.index t 0 = 0 ∧ win0_20.index t 1 = 0 :=
    (by decide +kernel : ∀ t : Fin grid0.N, win0_20.index t 0 = 0 ∧ win0_20.index t 1 = 0) t
  unfold iblk
  rw [View.read_apply]
  show V m c main_v23 _ = _
  refine (congrArg (V m c main_v23) (?_ : _ = (ix2 0 j : S1x896.Idx))).trans ?_
  · funext a
    apply Fin.ext
    match a with
    | ⟨0, _⟩ => show win0_20.index t 0 * 1 + 1 * (0 : Fin 1).val = (0 : Fin 1).val; rw [hi.1]; rfl
    | ⟨1, _⟩ => show win0_20.index t 1 * 896 + 1 * j.val = j.val; rw [hi.2]; omega
  · rw [V_main_v23]
    exact shapeCast_a_1a_apply _ _ (0 : Fin 1) j

/-! ## The weights and the row -/

/-- A grid point's weight blocks hold the weights the argument arrays hold. -/
theorem weights_blocks (c : Dev nD) (t : Fin cfg0.N) :
    weightsOfBlocks (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
      = weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold weightsOfBlocks weightsOf
  congr 1
  · funext n k; exact blk4_apply m c t k n
  · funext n; exact blk5_apply m c t n
  · funext n; exact blk6_apply m c t n
  · funext n; exact blk7_apply m c t n
  · funext n; exact blk8_apply m c t n
  · funext n; exact blk9_apply m c t n
  · funext j; exact blk18_apply m c t j
  · funext j; exact blk19_apply m c t j
  · funext j; exact blk20_apply m c t j
  · funext k l; exact blk10_apply m c t l k
  · funext k; exact blk11_apply m c t k
  · funext k l; exact blk12_apply m c t l k
  · funext k; exact blk13_apply m c t k
  · funext n k; exact blk14_apply m c t k n
  · funext n; exact blk15_apply m c t n
  · funext n k; exact blk16_apply m c t k n
  · funext n; exact blk17_apply m c t n

/-- Row p of grid point t's batch blocks is row 256·t + p of the batch. -/
theorem row_blocks (c : Dev nD) (t : Fin cfg0.N) (p : Fin 256) (b : Fin 16384) (hb : b.val = 256 * t.val + p.val) :
    rowOf (R := 256) (iblk m c 0 t) (iblk m c 1 t) (iblk m c 2 t) (iblk m c 3 t) p
      = rowOf (R := 16384) (m ((c : Thread nD τ).loc main_arg0)) (m ((c : Thread nD τ).loc main_arg1)) (m ((c : Thread nD τ).loc main_arg2)) (m ((c : Thread nD τ).loc main_arg3)) b := by
  unfold rowOf
  congr 1
  · funext k; exact blk0_apply m c t p k b hb
  · exact blk1_apply m c t p b hb
  · exact blk2_apply m c t p b hb
  · exact blk3_apply m c t p b hb

end Cert.Gru.Blocks

end
-- ==== Proof.KernelRun.lean ====
/-
  The idealized kernel's run, read: after the 64 grid points the three result arrays hold, row by row, the gated
  cell of `Spec.lean` and its two heads, applied to the rows of the argument arrays with the arguments' weights.

  Point `t` stages rows `256 t … 256 t + 255` of the four row inputs and every weight whole (the weights transposed,
  cut and reshaped by the host operations before the call: `BlockReads.lean`), so what it writes back is block `t`
  of the array-level function; the 64 blocks tile each result array.
-/
import proofs.«124156_j85950885527647_1_alg».proof.Proof.Gen.KernelIdeal.Value
import proofs.«124156_j85950885527647_1_alg».proof.Proof.BodyOut
import proofs.«124156_j85950885527647_1_alg».proof.Proof.BlockReads
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.Gru.Kernel

open Cert.KernelIdeal Cert.KernelIdeal.Gen Cert.KernelIdeal.Value Cert.Gru Cert.Gru.Body Cert.Gru.Blocks

variable (m : (ℓ : Loc nD τ sig) → Buf (Elt Ideal) ℓ) (ρ : Dev nD → PrngReg)

/-- The weights the argument arrays hold. -/
abbrev Wa (c : Dev nD) : Weights := weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Row `b` of the batch, off the argument arrays. -/
abbrev ra (c : Dev nD) (b : Fin 16384) : Row := rowOf (R := 16384) (m ((c : Thread nD τ).loc main_arg0)) (m ((c : Thread nD τ).loc main_arg1)) (m ((c : Thread nD τ).loc main_arg2)) (m ((c : Thread nD τ).loc main_arg3)) b

/-- The new hidden state of every row. -/
def newState (c : Dev nD) : S16384x896.Idx → EReal := fun i => hnew (Wa m c) (ra m c (i 0)) (i 1)
/-- The coarse head of every row. -/
def coarseOut (c : Dev nD) : S16384x256.Idx → EReal := fun i => pct (Wa m c) (ra m c (i 0)) (i 1)
/-- The fine head of every row. -/
def fineOut (c : Dev nD) : S16384x256.Idx → EReal := fun i => pft (Wa m c) (ra m c (i 0)) (i 1)

/-! ## Output window 21 -/

/-- The printed index map of window 21 over the grid: point `t` takes row block `t`, column block 0. -/
theorem idx_facts21 : ∀ t : Fin cfg0.N, win0_21.index t (0 : Fin 2) = t.val ∧ win0_21.index t (1 : Fin 2) = 0 :=
  (by decide +kernel : ∀ t : Fin grid0.N, _)

/-- Entry `y` of the block point `t` leaves is entry `i` of `newState` when `i` is `y` moved `256 t` rows down. -/
theorem block21_at (c : Dev nD) (t : Fin cfg0.N) (y : S256x896.Idx) (i : S16384x896.Idx)
    (h0 : (i 0).val = 256 * t.val + (y 0).val) (h1 : (i 1).val = (y 1).val) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = newState m c i := by
  obtain ⟨p, j, rfl⟩ : ∃ (p : Fin 256) (j : Fin 896), y = ix2 p j := ⟨y 0, y 1, eq_ix2 y⟩
  refine (out21_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p j).trans ?_
  have e1 := weights_blocks m c t
  have e2 := row_blocks m c t p (i 0) h0
  have e3 : j = i 1 := Fin.ext h1.symm
  show hnew (weightsOfBlocks (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))
      (rowOf (R := 256) (iblk m c 0 t) (iblk m c 1 t) (iblk m c 2 t) (iblk m c 3 t) p) j = hnew (Wa m c) (ra m c (i 0)) (i 1)
  rw [e1, e2, e3]

/-- WHAT POINT `t` WRITES BACK is block `t` of `newState`. -/
theorem flushed21_eq (c : Dev nD) (t : Fin cfg0.N) :
    (dats m 0 c).flushed 21 t = ((cfg0.win 21).blk t).view.read (Elt Ideal) (newState m c) := by
  rw [Value.flushed21]
  funext y
  obtain ⟨e0, e1⟩ := idx_facts21 t
  refine block21_at m c t y (((cfg0.win 21).blk t).view.emb y) ?_ ?_
  · show win0_21.index t (0 : Fin 2) * 256 + 1 * (y 0).val = 256 * t.val + (y 0).val
    rw [e0]; omega
  · show win0_21.index t (1 : Fin 2) * 896 + 1 * (y 1).val = (y 1).val
    rw [e1]; omega

/-- An index of the array is in point `t`'s block iff each coordinate is in the block's range on its axis. -/
theorem mem_blk21 (t : Fin cfg0.N) (i : S16384x896.Idx) :
    i ∈ ((cfg0.win 21).blk t).view.set ↔ ∀ a : Fin 2, win0_21.index t a * S256x896.size a ≤ (i a).val ∧ (i a).val < win0_21.index t a * S256x896.size a + S256x896.size a := by
  show i ∈ ((View.whole main_v24_0).slice (win0_21.rect t)).set ↔ _
  rw [View.set_slice_whole, Rect.mem_set_unit]
  exact Iff.rfl

/-- Every index of the array lies in the block of the point its row falls in. -/
theorem cover21 (i : S16384x896.Idx) :
    ∃ t : Fin cfg0.N, (cfg0.win 21).flush t = true ∧ i ∈ ((cfg0.win 21).blk t).view.set := by
  have hi0 : (i 0).val < 16384 := (i 0).isLt
  have hi1 : (i 1).val < 896 := (i 1).isLt
  have hN : cfg0.N = 64 := N_0
  refine ⟨⟨(i 0).val / 256, by rw [hN]; omega⟩, flush0_21 _, ?_⟩
  obtain ⟨e0, e1⟩ := idx_facts21 ⟨(i 0).val / 256, by rw [hN]; omega⟩
  rw [mem_blk21]
  intro a
  match a with
  | ⟨0, _⟩ =>
    show win0_21.index _ (0 : Fin 2) * 256 ≤ (i 0).val ∧ (i 0).val < win0_21.index _ (0 : Fin 2) * 256 + 256
    rw [e0]; show (i 0).val / 256 * 256 ≤ (i 0).val ∧ (i 0).val < (i 0).val / 256 * 256 + 256; omega
  | ⟨1, _⟩ =>
    show win0_21.index _ (1 : Fin 2) * 896 ≤ (i 1).val ∧ (i 1).val < win0_21.index _ (1 : Fin 2) * 896 + 896
    rw [e1]; omega

/-- THE ARRAY after the run is `newState`. -/
theorem final21 (c : Dev nD) : (dats m 0 c).arrAt 21 cfg0.N = newState m c :=
  (dats m 0 c).arrAt_eq_of_cover 21 (newState m c) (fun t _ => flushed21_eq m c t) cover21

/-! ## Output window 22 -/

/-- The printed index map of window 22 over the grid: point `t` takes row block `t`, column block 0. -/
theorem idx_facts22 : ∀ t : Fin cfg0.N, win0_22.index t (0 : Fin 2) = t.val ∧ win0_22.index t (1 : Fin 2) = 0 :=
  (by decide +kernel : ∀ t : Fin grid0.N, _)

/-- Entry `y` of the block point `t` leaves is entry `i` of `coarseOut` when `i` is `y` moved `256 t` rows down. -/
theorem block22_at (c : Dev nD) (t : Fin cfg0.N) (y : S256x256.Idx) (i : S16384x256.Idx)
    (h0 : (i 0).val = 256 * t.val + (y 0).val) (h1 : (i 1).val = (y 1).val) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = coarseOut m c i := by
  obtain ⟨p, j, rfl⟩ : ∃ (p : Fin 256) (j : Fin 256), y = ix2 p j := ⟨y 0, y 1, eq_ix2 y⟩
  refine (out22_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p j).trans ?_
  have e1 := weights_blocks m c t
  have e2 := row_blocks m c t p (i 0) h0
  have e3 : j = i 1 := Fin.ext h1.symm
  show pct (weightsOfBlocks (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))
      (rowOf (R := 256) (iblk m c 0 t) (iblk m c 1 t) (iblk m c 2 t) (iblk m c 3 t) p) j = pct (Wa m c) (ra m c (i 0)) (i 1)
  rw [e1, e2, e3]

/-- WHAT POINT `t` WRITES BACK is block `t` of `coarseOut`. -/
theorem flushed22_eq (c : Dev nD) (t : Fin cfg0.N) :
    (dats m 0 c).flushed 22 t = ((cfg0.win 22).blk t).view.read (Elt Ideal) (coarseOut m c) := by
  rw [Value.flushed22]
  funext y
  obtain ⟨e0, e1⟩ := idx_facts22 t
  refine block22_at m c t y (((cfg0.win 22).blk t).view.emb y) ?_ ?_
  · show win0_22.index t (0 : Fin 2) * 256 + 1 * (y 0).val = 256 * t.val + (y 0).val
    rw [e0]; omega
  · show win0_22.index t (1 : Fin 2) * 256 + 1 * (y 1).val = (y 1).val
    rw [e1]; omega

/-- An index of the array is in point `t`'s block iff each coordinate is in the block's range on its axis. -/
theorem mem_blk22 (t : Fin cfg0.N) (i : S16384x256.Idx) :
    i ∈ ((cfg0.win 22).blk t).view.set ↔ ∀ a : Fin 2, win0_22.index t a * S256x256.size a ≤ (i a).val ∧ (i a).val < win0_22.index t a * S256x256.size a + S256x256.size a := by
  show i ∈ ((View.whole main_v24_1).slice (win0_22.rect t)).set ↔ _
  rw [View.set_slice_whole, Rect.mem_set_unit]
  exact Iff.rfl

/-- Every index of the array lies in the block of the point its row falls in. -/
theorem cover22 (i : S16384x256.Idx) :
    ∃ t : Fin cfg0.N, (cfg0.win 22).flush t = true ∧ i ∈ ((cfg0.win 22).blk t).view.set := by
  have hi0 : (i 0).val < 16384 := (i 0).isLt
  have hi1 : (i 1).val < 256 := (i 1).isLt
  have hN : cfg0.N = 64 := N_0
  refine ⟨⟨(i 0).val / 256, by rw [hN]; omega⟩, flush0_22 _, ?_⟩
  obtain ⟨e0, e1⟩ := idx_facts22 ⟨(i 0).val / 256, by rw [hN]; omega⟩
  rw [mem_blk22]
  intro a
  match a with
  | ⟨0, _⟩ =>
    show win0_22.index _ (0 : Fin 2) * 256 ≤ (i 0).val ∧ (i 0).val < win0_22.index _ (0 : Fin 2) * 256 + 256
    rw [e0]; show (i 0).val / 256 * 256 ≤ (i 0).val ∧ (i 0).val < (i 0).val / 256 * 256 + 256; omega
  | ⟨1, _⟩ =>
    show win0_22.index _ (1 : Fin 2) * 256 ≤ (i 1).val ∧ (i 1).val < win0_22.index _ (1 : Fin 2) * 256 + 256
    rw [e1]; omega

/-- THE ARRAY after the run is `coarseOut`. -/
theorem final22 (c : Dev nD) : (dats m 0 c).arrAt 22 cfg0.N = coarseOut m c :=
  (dats m 0 c).arrAt_eq_of_cover 22 (coarseOut m c) (fun t _ => flushed22_eq m c t) cover22

/-! ## Output window 23 -/

/-- The printed index map of window 23 over the grid: point `t` takes row block `t`, column block 0. -/
theorem idx_facts23 : ∀ t : Fin cfg0.N, win0_23.index t (0 : Fin 2) = t.val ∧ win0_23.index t (1 : Fin 2) = 0 :=
  (by decide +kernel : ∀ t : Fin grid0.N, _)

/-- Entry `y` of the block point `t` leaves is entry `i` of `fineOut` when `i` is `y` moved `256 t` rows down. -/
theorem block23_at (c : Dev nD) (t : Fin cfg0.N) (y : S256x256.Idx) (i : S16384x256.Idx)
    (h0 : (i 0).val = 256 * t.val + (y 0).val) (h1 : (i 1).val = (y 1).val) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = fineOut m c i := by
  obtain ⟨p, j, rfl⟩ : ∃ (p : Fin 256) (j : Fin 256), y = ix2 p j := ⟨y 0, y 1, eq_ix2 y⟩
  refine (out23_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p j).trans ?_
  have e1 := weights_blocks m c t
  have e2 := row_blocks m c t p (i 0) h0
  have e3 : j = i 1 := Fin.ext h1.symm
  show pft (weightsOfBlocks (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))
      (rowOf (R := 256) (iblk m c 0 t) (iblk m c 1 t) (iblk m c 2 t) (iblk m c 3 t) p) j = pft (Wa m c) (ra m c (i 0)) (i 1)
  rw [e1, e2, e3]

/-- WHAT POINT `t` WRITES BACK is block `t` of `fineOut`. -/
theorem flushed23_eq (c : Dev nD) (t : Fin cfg0.N) :
    (dats m 0 c).flushed 23 t = ((cfg0.win 23).blk t).view.read (Elt Ideal) (fineOut m c) := by
  rw [Value.flushed23]
  funext y
  obtain ⟨e0, e1⟩ := idx_facts23 t
  refine block23_at m c t y (((cfg0.win 23).blk t).view.emb y) ?_ ?_
  · show win0_23.index t (0 : Fin 2) * 256 + 1 * (y 0).val = 256 * t.val + (y 0).val
    rw [e0]; omega
  · show win0_23.index t (1 : Fin 2) * 256 + 1 * (y 1).val = (y 1).val
    rw [e1]; omega

/-- An index of the array is in point `t`'s block iff each coordinate is in the block's range on its axis. -/
theorem mem_blk23 (t : Fin cfg0.N) (i : S16384x256.Idx) :
    i ∈ ((cfg0.win 23).blk t).view.set ↔ ∀ a : Fin 2, win0_23.index t a * S256x256.size a ≤ (i a).val ∧ (i a).val < win0_23.index t a * S256x256.size a + S256x256.size a := by
  show i ∈ ((View.whole main_v24_2).slice (win0_23.rect t)).set ↔ _
  rw [View.set_slice_whole, Rect.mem_set_unit]
  exact Iff.rfl

/-- Every index of the array lies in the block of the point its row falls in. -/
theorem cover23 (i : S16384x256.Idx) :
    ∃ t : Fin cfg0.N, (cfg0.win 23).flush t = true ∧ i ∈ ((cfg0.win 23).blk t).view.set := by
  have hi0 : (i 0).val < 16384 := (i 0).isLt
  have hi1 : (i 1).val < 256 := (i 1).isLt
  have hN : cfg0.N = 64 := N_0
  refine ⟨⟨(i 0).val / 256, by rw [hN]; omega⟩, flush0_23 _, ?_⟩
  obtain ⟨e0, e1⟩ := idx_facts23 ⟨(i 0).val / 256, by rw [hN]; omega⟩
  rw [mem_blk23]
  intro a
  match a with
  | ⟨0, _⟩ =>
    show win0_23.index _ (0 : Fin 2) * 256 ≤ (i 0).val ∧ (i 0).val < win0_23.index _ (0 : Fin 2) * 256 + 256
    rw [e0]; show (i 0).val / 256 * 256 ≤ (i 0).val ∧ (i 0).val < (i 0).val / 256 * 256 + 256; omega
  | ⟨1, _⟩ =>
    show win0_23.index _ (1 : Fin 2) * 256 ≤ (i 1).val ∧ (i 1).val < win0_23.index _ (1 : Fin 2) * 256 + 256
    rw [e1]; omega

/-- THE ARRAY after the run is `fineOut`. -/
theorem final23 (c : Dev nD) : (dats m 0 c).arrAt 23 cfg0.N = fineOut m c :=
  (dats m 0 c).arrAt_eq_of_cover 23 (fineOut m c) (fun t _ => flushed23_eq m c t) cover23

/-! ## The run, read -/

/-- Every weakly fair run of the idealized kernel ends with the three result arrays at the row-wise cell and its heads
    of the arguments, the arguments unchanged. -/
theorem run : θ_run defs (onTc (τ := τ) (main (F := Ideal))) ⟨m, fun _ => 0, ρ⟩ fun r => ∀ c : Dev nD,
      r.2.mem ((c : Thread nD τ).loc main_v24_0) = newState m c
      ∧ r.2.mem ((c : Thread nD τ).loc main_v24_1) = coarseOut m c
      ∧ r.2.mem ((c : Thread nD τ).loc main_v24_2) = fineOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final21 m c), (h c).2.1.trans (final22 m c),
      (h c).2.2.1.trans (final23 m c), (h c).2.2.2⟩)
    (Value.run_blocks m ρ)

end Cert.Gru.Kernel

end
-- ==== Proof.RefSpec.lean ====
/-
  The reference program's three results are the gated recurrent cell of the specification, index by index.

  The program is read one operation at a time, always at an index written by its two coordinates (batch row b,
  column n).  The recurrent product at (b, n) is the sum over k of h b k · rw n k; the coarse and fine input
  projections are the two- and three-term sums over the scalar columns joined side by side; each gate input is
  two 448-wide column slices of those projections joined side by side, so that at a column j it is the coarse
  slice for j < 448 and the fine slice at j − 448 otherwise; the gates, the candidate and the new state are
  pointwise in these; each head is a matrix product of a half of the new state, a bias, a maximum against zero,
  a second matrix product and a second bias.  The logistic function is printed as 1 / (1 + exp (−x)), which is
  its definition.
-/
import proofs.«124156_j85950885527647_1_alg».proof.Proof.Gen.ReferenceIdeal.Read
import proofs.«124156_j85950885527647_1_alg».proof.Proof.Spec
import Idealize.ShloMosaic.Lib.Pipeline.Value
import Idealize.ShloMosaic.Lib.ValueIdx
import Idealize.ShloMosaic.PureOps.Ideal.Laws
noncomputable section
namespace Cert.Gru.Ref
open Cert.ReferenceIdeal Cert.ReferenceIdeal.Read Idealize.ShloMosaic Idealize.ShloMosaic.ValueIdx Cert.Gru

/-! ## Indices by coordinates, and two arrays joined along the columns -/

/-- Two rank-2 indices with the same coordinates are equal. -/
theorem idx2_ext {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-- Two rank-1 indices with the same coordinate are equal. -/
theorem idx1_ext {n0 : Nat} {i j : (⟨1, ![n0]⟩ : Shape).Idx} (h0 : (i 0).val = (j 0).val) : i = j :=
  funext fun a => Fin.ext (by match a with | ⟨0, _⟩ => exact h0)

/-- Two arrays of widths m and n joined along the columns, read at a column j: the first at j when j < m,
    the second at j − m otherwise. -/
theorem concat_cols {α : Type} {R m n N : Nat} (hN : N = m + n) (f : (⟨2, ![R, m]⟩ : Shape).Idx → α)
    (g : (⟨2, ![R, n]⟩ : Shape).Idx → α)
    (h : Shape.Concatenates [(⟨2, ![R, m]⟩ : Shape), ⟨2, ![R, n]⟩] ⟨2, ![R, N]⟩ 1) (b : Fin R) (j : Fin N) :
    concatenate (⟨2, ![R, N]⟩ : Shape) 1 [⟨⟨2, ![R, m]⟩, f⟩, ⟨⟨2, ![R, n]⟩, g⟩] h (ix2 b j)
      = if hj : j.val < m then f (ix2 b ⟨j.val, hj⟩) else g (ix2 b ⟨j.val - m, by have := j.isLt; omega⟩) := by
  by_cases hj : j.val < m
  · rw [dif_pos hj]
    exact concatenate_pair_apply_left 1 f g h (ix2 b j) rfl (ix2 b ⟨j.val, hj⟩)
      (fun a => by match a with | ⟨0, _⟩ => rfl | ⟨1, _⟩ => rfl)
  · rw [dif_neg hj]
    exact concatenate_pair_apply_right 1 f g h (ix2 b j) rfl rfl (ix2 b ⟨j.val - m, by have := j.isLt; omega⟩)
      (fun a ha => by match a with | ⟨0, _⟩ => rfl | ⟨1, _⟩ => exact absurd rfl ha)
      (by show j.val - m + m = j.val; omega)

variable (x0 : (⟨S16384x896, .f32⟩ : BufTy).Contents (Elt Ideal)) (x1 x2 x3 : (⟨S16384x1, .f32⟩ : BufTy).Contents (Elt Ideal))
  (x4 : (⟨S2688x896, .f32⟩ : BufTy).Contents (Elt Ideal)) (x5 : (⟨S1344x2, .f32⟩ : BufTy).Contents (Elt Ideal))
  (x6 : (⟨S1344x3, .f32⟩ : BufTy).Contents (Elt Ideal)) (x7 : (⟨S448x448, .f32⟩ : BufTy).Contents (Elt Ideal))
  (x8 : (⟨S448, .f32⟩ : BufTy).Contents (Elt Ideal)) (x9 : (⟨S448x448, .f32⟩ : BufTy).Contents (Elt Ideal))
  (x10 : (⟨S448, .f32⟩ : BufTy).Contents (Elt Ideal)) (x11 : (⟨S256x448, .f32⟩ : BufTy).Contents (Elt Ideal))
  (x12 : (⟨S256, .f32⟩ : BufTy).Contents (Elt Ideal)) (x13 : (⟨S256x448, .f32⟩ : BufTy).Contents (Elt Ideal))
  (x14 : (⟨S256, .f32⟩ : BufTy).Contents (Elt Ideal)) (x15 x16 x17 : (⟨S896, .f32⟩ : BufTy).Contents (Elt Ideal))

local notation "WW" => weightsOf x4 x5 x6 x7 x8 x9 x10 x11 x12 x13 x14 x15 x16 x17
local notation "RR" => rowOf x0 x1 x2 x3

/-! ## The recurrent product and the two input projections -/

/-- The recurrent product at (b, n). -/
theorem rec_at (b : Fin 16384) (n : Fin 2688) :
    val_main_v1 (F := Ideal) x0 x4 (ix2 b n) = rec WW (RR b) n := by
  rw [val_main_v1_apply]
  unfold rec
  refine Finset.sum_congr rfl fun k _ => ?_
  rw [val_main_v0_apply, show lidx_main_v1 (ix2 b n) k = ix2 b k from idx2_ext rfl rfl,
    show idx_main_v0 (ridx_main_v1 (ix2 b n) k) = ix2 n k from idx2_ext rfl rfl]
  rfl

/-- The two scalar columns side by side: column 0 is the first. -/
theorem cols2_0 (b : Fin 16384) : val_main_v2 (F := Ideal) x1 x2 (ix2 b 0) = x1 (ix2 b 0) :=
  concatenate_pair_apply_left 1 x1 x2 Gen.concatenates_S16384x1_S16384x1_S16384x2_d1 (ix2 b 0) rfl (ix2 b 0)
    (fun a => by match a with | ⟨0, _⟩ => rfl | ⟨1, _⟩ => rfl)

/-- The two scalar columns side by side: column 1 is the second. -/
theorem cols2_1 (b : Fin 16384) : val_main_v2 (F := Ideal) x1 x2 (ix2 b 1) = x2 (ix2 b 0) :=
  concatenate_pair_apply_right 1 x1 x2 Gen.concatenates_S16384x1_S16384x1_S16384x2_d1 (ix2 b 1) rfl rfl (ix2 b 0)
    (fun a ha => by match a with | ⟨0, _⟩ => rfl | ⟨1, _⟩ => exact absurd rfl ha) rfl

/-- The three scalar columns side by side: column 0 is the first. -/
theorem cols3_0 (b : Fin 16384) : val_main_v5 (F := Ideal) x1 x2 x3 (ix2 b 0) = x1 (ix2 b 0) :=
  concatenate_apply_piece 1 [⟨S16384x1, x1⟩, ⟨S16384x1, x2⟩, ⟨S16384x1, x3⟩]
    Gen.concatenates_S16384x1_S16384x1_S16384x1_S16384x3_d1 (ix2 b 0) 0 (by show (0 : Nat) < 3; omega) S16384x1 x1 rfl rfl 0 rfl (ix2 b 0)
    (fun a ha => by match a with | ⟨0, _⟩ => rfl | ⟨1, _⟩ => exact absurd rfl ha) rfl

/-- The three scalar columns side by side: column 1 is the second. -/
theorem cols3_1 (b : Fin 16384) : val_main_v5 (F := Ideal) x1 x2 x3 (ix2 b 1) = x2 (ix2 b 0) :=
  concatenate_apply_piece 1 [⟨S16384x1, x1⟩, ⟨S16384x1, x2⟩, ⟨S16384x1, x3⟩]
    Gen.concatenates_S16384x1_S16384x1_S16384x1_S16384x3_d1 (ix2 b 1) 1 (by show (1 : Nat) < 3; omega) S16384x1 x2 rfl rfl 1 rfl (ix2 b 0)
    (fun a ha => by match a with | ⟨0, _⟩ => rfl | ⟨1, _⟩ => exact absurd rfl ha) rfl

/-- The three scalar columns side by side: column 2 is the third. -/
theorem cols3_2 (b : Fin 16384) : val_main_v5 (F := Ideal) x1 x2 x3 (ix2 b 2) = x3 (ix2 b 0) :=
  concatenate_apply_piece 1 [⟨S16384x1, x1⟩, ⟨S16384x1, x2⟩, ⟨S16384x1, x3⟩]
    Gen.concatenates_S16384x1_S16384x1_S16384x1_S16384x3_d1 (ix2 b 2) 2 (by show (2 : Nat) < 3; omega) S16384x1 x3 rfl rfl 2 rfl (ix2 b 0)
    (fun a ha => by match a with | ⟨0, _⟩ => rfl | ⟨1, _⟩ => exact absurd rfl ha) rfl

/-- The coarse input projection at (b, n). -/
theorem coarse_at (b : Fin 16384) (n : Fin 1344) :
    val_main_v4 (F := Ideal) x1 x2 x5 (ix2 b n) = coarse WW (RR b) n := by
  rw [val_main_v4_apply, Fin.sum_univ_two, val_main_v3_apply, val_main_v3_apply,
    show lidx_main_v4 (ix2 b n) 0 = ix2 b 0 from idx2_ext rfl rfl,
    show lidx_main_v4 (ix2 b n) 1 = ix2 b 1 from idx2_ext rfl rfl,
    show idx_main_v3 (ridx_main_v4 (ix2 b n) 0) = ix2 n 0 from idx2_ext rfl rfl,
    show idx_main_v3 (ridx_main_v4 (ix2 b n) 1) = ix2 n 1 from idx2_ext rfl rfl, cols2_0, cols2_1]
  rfl

/-- The fine input projection at (b, n). -/
theorem fine_at (b : Fin 16384) (n : Fin 1344) :
    val_main_v7 (F := Ideal) x1 x2 x3 x6 (ix2 b n) = fine WW (RR b) n := by
  rw [val_main_v7_apply, Fin.sum_univ_three, val_main_v6_apply, val_main_v6_apply, val_main_v6_apply,
    show lidx_main_v7 (ix2 b n) 0 = ix2 b 0 from idx2_ext rfl rfl,
    show lidx_main_v7 (ix2 b n) 1 = ix2 b 1 from idx2_ext rfl rfl,
    show lidx_main_v7 (ix2 b n) 2 = ix2 b 2 from idx2_ext rfl rfl,
    show idx_main_v6 (ridx_main_v7 (ix2 b n) 0) = ix2 n 0 from idx2_ext rfl rfl,
    show idx_main_v6 (ridx_main_v7 (ix2 b n) 1) = ix2 n 1 from idx2_ext rfl rfl,
    show idx_main_v6 (ridx_main_v7 (ix2 b n) 2) = ix2 n 2 from idx2_ext rfl rfl, cols3_0, cols3_1, cols3_2]
  rfl

/-! ## The gate inputs: column slices of the two projections, joined side by side -/

theorem slice_c0 (b : Fin 16384) (c : Fin 448) :
    val_main_v8 (F := Ideal) x1 x2 x5 (ix2 b c) = coarse WW (RR b) ⟨0 + c.val, by have := c.isLt; omega⟩ := by
  rw [val_main_v8_apply, show idx_main_v8 (ix2 b c) = ix2 b ⟨0 + c.val, by have := c.isLt; omega⟩ from
    idx2_ext rfl (by show c.val = 0 + c.val; omega), coarse_at x0 x1 x2 x3 x4 x5 x6 x7 x8 x9 x10 x11 x12 x13 x14 x15 x16 x17]

theorem slice_f0 (b : Fin 16384) (c : Fin 448) :
    val_main_v9 (F := Ideal) x1 x2 x3 x6 (ix2 b c) = fine WW (RR b) ⟨0 + c.val, by have := c.isLt; omega⟩ := by
  rw [val_main_v9_apply, show idx_main_v9 (ix2 b c) = ix2 b ⟨0 + c.val, by have := c.isLt; omega⟩ from
    idx2_ext rfl (by show c.val = 0 + c.val; omega), fine_at x0 x1 x2 x3 x4 x5 x6 x7 x8 x9 x10 x11 x12 x13 x14 x15 x16 x17]

theorem slice_c1 (b : Fin 16384) (c : Fin 448) :
    val_main_v11 (F := Ideal) x1 x2 x5 (ix2 b c) = coarse WW (RR b) ⟨448 + c.val, by have := c.isLt; omega⟩ := by
  rw [val_main_v11_apply, show idx_main_v11 (ix2 b c) = ix2 b ⟨448 + c.val, by have := c.isLt; omega⟩ from
    idx2_ext rfl rfl, coarse_at x0 x1 x2 x3 x4 x5 x6 x7 x8 x9 x10 x11 x12 x13 x14 x15 x16 x17]

theorem slice_f1 (b : Fin 16384) (c : Fin 448) :
    val_main_v12 (F := Ideal) x1 x2 x3 x6 (ix2 b c) = fine WW (RR b) ⟨448 + c.val, by have := c.isLt; omega⟩ := by
  rw [val_main_v12_apply, show idx_main_v12 (ix2 b c) = ix2 b ⟨448 + c.val, by have := c.isLt; omega⟩ from
    idx2_ext rfl rfl, fine_at x0 x1 x2 x3 x4 x5 x6 x7 x8 x9 x10 x11 x12 x13 x14 x15 x16 x17]

theorem slice_c2 (b : Fin 16384) (c : Fin 448) :
    val_main_v14 (F := Ideal) x1 x2 x5 (ix2 b c) = coarse WW (RR b) ⟨896 + c.val, by have := c.isLt; omega⟩ := by
  rw [val_main_v14_apply, show idx_main_v14 (ix2 b c) = ix2 b ⟨896 + c.val, by have := c.isLt; omega⟩ from
    idx2_ext rfl rfl, coarse_at x0 x1 x2 x3 x4 x5 x6 x7 x8 x9 x10 x11 x12 x13 x14 x15 x16 x17]

theorem slice_f2 (b : Fin 16384) (c : Fin 448) :
    val_main_v15 (F := Ideal) x1 x2 x3 x6 (ix2 b c) = fine WW (RR b) ⟨896 + c.val, by have := c.isLt; omega⟩ := by
  rw [val_main_v15_apply, show idx_main_v15 (ix2 b c) = ix2 b ⟨896 + c.val, by have := c.isLt; omega⟩ from
    idx2_ext rfl rfl, fine_at x0 x1 x2 x3 x4 x5 x6 x7 x8 x9 x10 x11 x12 x13 x14 x15 x16 x17]

/-- The update gate's input at (b, j). -/
theorem gate0_at (b : Fin 16384) (j : Fin 896) :
    val_main_v10 (F := Ideal) x1 x2 x3 x5 x6 (ix2 b j) = gateIn WW (RR b) 0 (by omega) j := by
  unfold val_main_v10 gateIn
  rw [concat_cols (m := 448) (n := 448) rfl]
  by_cases hj : j.val < 448
  · rw [dif_pos hj, dif_pos hj, slice_c0 x0 x1 x2 x3 x4 x5 x6 x7 x8 x9 x10 x11 x12 x13 x14 x15 x16 x17]
  · rw [dif_neg hj, dif_neg hj, slice_f0 x0 x1 x2 x3 x4 x5 x6 x7 x8 x9 x10 x11 x12 x13 x14 x15 x16 x17]

/-- The reset gate's input at (b, j). -/
theorem gate1_at (b : Fin 16384) (j : Fin 896) :
    val_main_v13 (F := Ideal) x1 x2 x3 x5 x6 (ix2 b j) = gateIn WW (RR b) 448 (by omega) j := by
  unfold val_main_v13 gateIn
  rw [concat_cols (m := 448) (n := 448) rfl]
  by_cases hj : j.val < 448
  · rw [dif_pos hj, dif_pos hj, slice_c1 x0 x1 x2 x3 x4 x5 x6 x7 x8 x9 x10 x11 x12 x13 x14 x15 x16 x17]
  · rw [dif_neg hj, dif_neg hj, slice_f1 x0 x1 x2 x3 x4 x5 x6 x7 x8 x9 x10 x11 x12 x13 x14 x15 x16 x17]

/-- The candidate's input at (b, j). -/
theorem gate2_at (b : Fin 16384) (j : Fin 896) :
    val_main_v16 (F := Ideal) x1 x2 x3 x5 x6 (ix2 b j) = gateIn WW (RR b) 896 (by omega) j := by
  unfold val_main_v16 gateIn
  rw [concat_cols (m := 448) (n := 448) rfl]
  by_cases hj : j.val < 448
  · rw [dif_pos hj, dif_pos hj, slice_c2 x0 x1 x2 x3 x4 x5 x6 x7 x8 x9 x10 x11 x12 x13 x14 x15 x16 x17]
  · rw [dif_neg hj, dif_neg hj, slice_f2 x0 x1 x2 x3 x4 x5 x6 x7 x8 x9 x10 x11 x12 x13 x14 x15 x16 x17]

/-! ## The gates, the candidate and the new state -/

/-- A bias vector spread over the batch, read at (b, j). -/
theorem bias_u (b : Fin 16384) (j : Fin 896) : val_main_v20 (F := Ideal) x15 (ix2 b j) = x15 (ix1 j) := by
  rw [val_main_v20_apply, val_main_v19_apply]; exact congrArg x15 (idx1_ext rfl)

theorem bias_r (b : Fin 16384) (j : Fin 896) : val_main_v31 (F := Ideal) x16 (ix2 b j) = x16 (ix1 j) := by
  rw [val_main_v31_apply, val_main_v30_apply]; exact congrArg x16 (idx1_ext rfl)

theorem bias_e (b : Fin 16384) (j : Fin 896) : val_main_v43 (F := Ideal) x17 (ix2 b j) = x17 (ix1 j) := by
  rw [val_main_v43_apply, val_main_v42_apply]; exact congrArg x17 (idx1_ext rfl)

/-- The update gate at (b, j). -/
theorem upd_at (b : Fin 16384) (j : Fin 896) :
    val_main_v27 (F := Ideal) x0 x1 x2 x3 x4 x5 x6 x15 (ix2 b j) = upd WW (RR b) j := by
  rw [val_main_v27_apply, val_main_v26_apply, val_main_cst_0_apply, val_main_v25_apply, val_main_v24_apply,
    val_main_cst_apply, val_main_v23_apply, val_main_v22_apply, val_main_v21_apply, val_main_v18_apply,
    val_main_v17_apply, show idx_main_v17 (ix2 b j) = ix2 b ⟨j.val, by have := j.isLt; omega⟩ from idx2_ext rfl rfl,
    rec_at x0 x1 x2 x3 x4 x5 x6 x7 x8 x9 x10 x11 x12 x13 x14 x15 x16 x17, gate0_at x0 x1 x2 x3 x4 x5 x6 x7 x8 x9 x10 x11 x12 x13 x14 x15 x16 x17, bias_u]
  simp only [Ideal.ofBits_def, one_f32, Ideal.hostDivf_def, Ideal.addf_def, Ideal.hostUnary_exp_def,
    Ideal.hostNegf_def, Ideal.negf_def]
  rfl

/-- The reset gate at (b, j). -/
theorem rst_at (b : Fin 16384) (j : Fin 896) :
    val_main_v38 (F := Ideal) x0 x1 x2 x3 x4 x5 x6 x16 (ix2 b j) = rst WW (RR b) j := by
  rw [val_main_v38_apply, val_main_v37_apply, val_main_cst_2_apply, val_main_v36_apply, val_main_v35_apply,
    val_main_cst_1_apply, val_main_v34_apply, val_main_v33_apply, val_main_v32_apply, val_main_v29_apply,
    val_main_v28_apply, show idx_main_v28 (ix2 b j) = ix2 b ⟨896 + j.val, by have := j.isLt; omega⟩ from idx2_ext rfl rfl,
    rec_at x0 x1 x2 x3 x4 x5 x6 x7 x8 x9 x10 x11 x12 x13 x14 x15 x16 x17, gate1_at x0 x1 x2 x3 x4 x5 x6 x7 x8 x9 x10 x11 x12 x13 x14 x15 x16 x17, bias_r]
  simp only [Ideal.ofBits_def, one_f32, Ideal.hostDivf_def, Ideal.addf_def, Ideal.hostUnary_exp_def,
    Ideal.hostNegf_def, Ideal.negf_def]
  rfl

/-- The candidate state at (b, j). -/
theorem cand_at (b : Fin 16384) (j : Fin 896) :
    val_main_v45 (F := Ideal) x0 x1 x2 x3 x4 x5 x6 x16 x17 (ix2 b j) = cand WW (RR b) j := by
  rw [val_main_v45_apply, val_main_v44_apply, val_main_v41_apply, val_main_v40_apply, val_main_v39_apply,
    show idx_main_v39 (ix2 b j) = ix2 b ⟨1792 + j.val, by have := j.isLt; omega⟩ from idx2_ext rfl rfl,
    rec_at x0 x1 x2 x3 x4 x5 x6 x7 x8 x9 x10 x11 x12 x13 x14 x15 x16 x17, rst_at x0 x1 x2 x3 x4 x5 x6 x7 x8 x9 x10 x11 x12 x13 x14 x15 x16 x17, gate2_at x0 x1 x2 x3 x4 x5 x6 x7 x8 x9 x10 x11 x12 x13 x14 x15 x16 x17, bias_e]
  simp only [Ideal.hostUnary_tanh_def, Ideal.addf_def, Ideal.mulf_def]
  rfl

/-- The new hidden state at (b, j). -/
theorem hnew_at (b : Fin 16384) (j : Fin 896) :
    val_main_v50 (F := Ideal) x0 x1 x2 x3 x4 x5 x6 x15 x16 x17 (ix2 b j) = hnew WW (RR b) j := by
  rw [val_main_v50_apply, val_main_v46_apply, val_main_v49_apply, val_main_v48_apply, val_main_v47_apply,
    val_main_cst_3_apply, upd_at x0 x1 x2 x3 x4 x5 x6 x7 x8 x9 x10 x11 x12 x13 x14 x15 x16 x17, cand_at x0 x1 x2 x3 x4 x5 x6 x7 x8 x9 x10 x11 x12 x13 x14 x15 x16 x17]
  simp only [Ideal.ofBits_def, one_f32, Ideal.addf_def, Ideal.mulf_def, Ideal.subf_def]
  rfl

theorem ref_hnew (i : S16384x896.Idx) :
    val_main_v50 (F := Ideal) x0 x1 x2 x3 x4 x5 x6 x15 x16 x17 i
      = hnew (weightsOf x4 x5 x6 x7 x8 x9 x10 x11 x12 x13 x14 x15 x16 x17) (rowOf x0 x1 x2 x3 (i 0)) (i 1) := by
  exact (congrArg (val_main_v50 (F := Ideal) x0 x1 x2 x3 x4 x5 x6 x15 x16 x17) (eq_ix2 i)).trans
    (hnew_at x0 x1 x2 x3 x4 x5 x6 x7 x8 x9 x10 x11 x12 x13 x14 x15 x16 x17 (i 0) (i 1))

/-! ## The two heads -/

/-- The first half of the new state at (b, l). -/
theorem half0_at (b : Fin 16384) (l : Fin 448) :
    val_main_v51 (F := Ideal) x0 x1 x2 x3 x4 x5 x6 x15 x16 x17 (ix2 b l)
      = hnew WW (RR b) ⟨0 + l.val, by have := l.isLt; omega⟩ := by
  rw [val_main_v51_apply, show idx_main_v51 (ix2 b l) = ix2 b ⟨0 + l.val, by have := l.isLt; omega⟩ from
    idx2_ext rfl (by show l.val = 0 + l.val; omega), hnew_at x0 x1 x2 x3 x4 x5 x6 x7 x8 x9 x10 x11 x12 x13 x14 x15 x16 x17]

/-- The second half of the new state at (b, l). -/
theorem half1_at (b : Fin 16384) (l : Fin 448) :
    val_main_v52 (F := Ideal) x0 x1 x2 x3 x4 x5 x6 x15 x16 x17 (ix2 b l)
      = hnew WW (RR b) ⟨448 + l.val, by have := l.isLt; omega⟩ := by
  rw [val_main_v52_apply, show idx_main_v52 (ix2 b l) = ix2 b ⟨448 + l.val, by have := l.isLt; omega⟩ from
    idx2_ext rfl rfl, hnew_at x0 x1 x2 x3 x4 x5 x6 x7 x8 x9 x10 x11 x12 x13 x14 x15 x16 x17]

/-- The coarse head's first product at (b, k). -/
theorem dot0_at (b : Fin 16384) (k : Fin 448) :
    val_main_v54 (F := Ideal) x0 x1 x2 x3 x4 x5 x6 x7 x15 x16 x17 (ix2 b k)
      = ∑ l : Fin 448, hnew WW (RR b) ⟨0 + l.val, by have := l.isLt; omega⟩ * x7 (ix2 k l) := by
  rw [val_main_v54_apply]
  refine Finset.sum_congr rfl fun l _ => ?_
  rw [val_main_v53_apply, show lidx_main_v54 (ix2 b k) l = ix2 b l from idx2_ext rfl rfl,
    show idx_main_v53 (ridx_main_v54 (ix2 b k) l) = ix2 k l from idx2_ext rfl rfl, half0_at x0 x1 x2 x3 x4 x5 x6 x7 x8 x9 x10 x11 x12 x13 x14 x15 x16 x17]

/-- The fine head's first product at (b, k). -/
theorem dot1_at (b : Fin 16384) (k : Fin 448) :
    val_main_v65 (F := Ideal) x0 x1 x2 x3 x4 x5 x6 x9 x15 x16 x17 (ix2 b k)
      = ∑ l : Fin 448, hnew WW (RR b) ⟨448 + l.val, by have := l.isLt; omega⟩ * x9 (ix2 k l) := by
  rw [val_main_v65_apply]
  refine Finset.sum_congr rfl fun l _ => ?_
  rw [val_main_v64_apply, show lidx_main_v65 (ix2 b k) l = ix2 b l from idx2_ext rfl rfl,
    show idx_main_v64 (ridx_main_v65 (ix2 b k) l) = ix2 k l from idx2_ext rfl rfl, half1_at x0 x1 x2 x3 x4 x5 x6 x7 x8 x9 x10 x11 x12 x13 x14 x15 x16 x17]

/-- The coarse head's hidden layer at (b, k). -/
theorem hid0_at (b : Fin 16384) (k : Fin 448) :
    val_main_v58 (F := Ideal) x0 x1 x2 x3 x4 x5 x6 x7 x8 x15 x16 x17 (ix2 b k)
      = hid WW (RR b) (fun k l => x7 (ix2 k l)) (fun k => x8 (ix1 k)) 0 (by omega) k := by
  rw [val_main_v58_apply, val_main_call0_v0_apply, val_main_call0_cst_apply, val_main_v57_apply, dot0_at x0 x1 x2 x3 x4 x5 x6 x7 x8 x9 x10 x11 x12 x13 x14 x15 x16 x17,
    val_main_v56_apply, val_main_v55_apply, show idx_main_v55 (idx_main_v56 (ix2 b k)) = ix1 k from idx1_ext rfl]
  simp only [Ideal.ofBits_def, Ideal.ofBits_zero_f32, Ideal.maximumf_def, Ideal.addf_def]
  rfl

/-- The fine head's hidden layer at (b, k). -/
theorem hid1_at (b : Fin 16384) (k : Fin 448) :
    val_main_v69 (F := Ideal) x0 x1 x2 x3 x4 x5 x6 x9 x10 x15 x16 x17 (ix2 b k)
      = hid WW (RR b) (fun k l => x9 (ix2 k l)) (fun k => x10 (ix1 k)) 448 (by omega) k := by
  rw [val_main_v69_apply, val_main_call1_v0_apply, val_main_call1_cst_apply, val_main_v68_apply, dot1_at x0 x1 x2 x3 x4 x5 x6 x7 x8 x9 x10 x11 x12 x13 x14 x15 x16 x17,
    val_main_v67_apply, val_main_v66_apply, show idx_main_v66 (idx_main_v67 (ix2 b k)) = ix1 k from idx1_ext rfl]
  simp only [Ideal.ofBits_def, Ideal.ofBits_zero_f32, Ideal.maximumf_def, Ideal.addf_def]
  rfl

/-- The coarse head's second product at (b, n). -/
theorem out0_dot (b : Fin 16384) (n : Fin 256) :
    val_main_v60 (F := Ideal) x0 x1 x2 x3 x4 x5 x6 x7 x8 x11 x15 x16 x17 (ix2 b n)
      = ∑ k : Fin 448, hid WW (RR b) (fun k l => x7 (ix2 k l)) (fun k => x8 (ix1 k)) 0 (by omega) k * x11 (ix2 n k) := by
  rw [val_main_v60_apply]
  refine Finset.sum_congr rfl fun k _ => ?_
  rw [val_main_v59_apply, show lidx_main_v60 (ix2 b n) k = ix2 b k from idx2_ext rfl rfl,
    show idx_main_v59 (ridx_main_v60 (ix2 b n) k) = ix2 n k from idx2_ext rfl rfl, hid0_at x0 x1 x2 x3 x4 x5 x6 x7 x8 x9 x10 x11 x12 x13 x14 x15 x16 x17]

/-- The fine head's second product at (b, n). -/
theorem out1_dot (b : Fin 16384) (n : Fin 256) :
    val_main_v71 (F := Ideal) x0 x1 x2 x3 x4 x5 x6 x9 x10 x13 x15 x16 x17 (ix2 b n)
      = ∑ k : Fin 448, hid WW (RR b) (fun k l => x9 (ix2 k l)) (fun k => x10 (ix1 k)) 448 (by omega) k * x13 (ix2 n k) := by
  rw [val_main_v71_apply]
  refine Finset.sum_congr rfl fun k _ => ?_
  rw [val_main_v70_apply, show lidx_main_v71 (ix2 b n) k = ix2 b k from idx2_ext rfl rfl,
    show idx_main_v70 (ridx_main_v71 (ix2 b n) k) = ix2 n k from idx2_ext rfl rfl, hid1_at x0 x1 x2 x3 x4 x5 x6 x7 x8 x9 x10 x11 x12 x13 x14 x15 x16 x17]

/-- The coarse head at (b, n). -/
theorem pct_at (b : Fin 16384) (n : Fin 256) :
    val_main_v63 (F := Ideal) x0 x1 x2 x3 x4 x5 x6 x7 x8 x11 x12 x15 x16 x17 (ix2 b n) = pct WW (RR b) n := by
  rw [val_main_v63_apply, out0_dot x0 x1 x2 x3 x4 x5 x6 x7 x8 x9 x10 x11 x12 x13 x14 x15 x16 x17, val_main_v62_apply, val_main_v61_apply,
    show idx_main_v61 (idx_main_v62 (ix2 b n)) = ix1 n from idx1_ext rfl]
  simp only [Ideal.addf_def]
  rfl

/-- The fine head at (b, n). -/
theorem pft_at (b : Fin 16384) (n : Fin 256) :
    val_main_v74 (F := Ideal) x0 x1 x2 x3 x4 x5 x6 x9 x10 x13 x14 x15 x16 x17 (ix2 b n) = pft WW (RR b) n := by
  rw [val_main_v74_apply, out1_dot x0 x1 x2 x3 x4 x5 x6 x7 x8 x9 x10 x11 x12 x13 x14 x15 x16 x17, val_main_v73_apply, val_main_v72_apply,
    show idx_main_v72 (idx_main_v73 (ix2 b n)) = ix1 n from idx1_ext rfl]
  simp only [Ideal.addf_def]
  rfl

theorem ref_pct (i : S16384x256.Idx) :
    val_main_v63 (F := Ideal) x0 x1 x2 x3 x4 x5 x6 x7 x8 x11 x12 x15 x16 x17 i
      = pct (weightsOf x4 x5 x6 x7 x8 x9 x10 x11 x12 x13 x14 x15 x16 x17) (rowOf x0 x1 x2 x3 (i 0)) (i 1) := by
  exact (congrArg (val_main_v63 (F := Ideal) x0 x1 x2 x3 x4 x5 x6 x7 x8 x11 x12 x15 x16 x17) (eq_ix2 i)).trans
    (pct_at x0 x1 x2 x3 x4 x5 x6 x7 x8 x9 x10 x11 x12 x13 x14 x15 x16 x17 (i 0) (i 1))

theorem ref_pft (i : S16384x256.Idx) :
    val_main_v74 (F := Ideal) x0 x1 x2 x3 x4 x5 x6 x9 x10 x13 x14 x15 x16 x17 i
      = pft (weightsOf x4 x5 x6 x7 x8 x9 x10 x11 x12 x13 x14 x15 x16 x17) (rowOf x0 x1 x2 x3 (i 0)) (i 1) := by
  exact (congrArg (val_main_v74 (F := Ideal) x0 x1 x2 x3 x4 x5 x6 x9 x10 x13 x14 x15 x16 x17) (eq_ix2 i)).trans
    (pft_at x0 x1 x2 x3 x4 x5 x6 x7 x8 x9 x10 x11 x12 x13 x14 x15 x16 x17 (i 0) (i 1))

end Cert.Gru.Ref
end
-- ==== Proof.lean ====
/-
  A gated recurrent cell with two output heads, as one fused Pallas kernel tiled over the batch (64 row blocks of
  256 rows, every weight resident), against its plain jnp reference.

  Per batch row both programs compute, on the extended reals,
      R = h · Rwᵀ,   C = c1 · Ic[:,0] + f1 · Ic[:,1],   Fn = c1 · If[:,0] + f1 · If[:,1] + ct · If[:,2],
      u = σ (R[0:896] + [C[0:448] | Fn[0:448]] + bu),   r = σ (R[896:1792] + [C[448:896] | Fn[448:896]] + br),
      e = tanh (r · R[1792:2688] + [C[896:1344] | Fn[896:1344]] + be),   h' = u · h + (1 − u) · e,
      Pct = relu (h'[0:448] · O1ᵀ + b1) · O3ᵀ + b3,   Pft = relu (h'[448:896] · O2ᵀ + b2) · O4ᵀ + b4.
  The kernel narrows its matrix operands to bf16 (the identity on the extended reals), forms the two small input
  projections as sums of outer products where the reference contracts a joined 2- or 3-column matrix, and uses the
  one logistic operation where the reference spells 1 / (1 + exp (−x)): the same function. No law beyond the
  definitions joins the two sides, so the precondition is not opened.

  `Spec.lean` states the cell per row; `BodyDots.lean`, `BodyState.lean`, `BodyOut.lean` read the kernel's body at
  an entry; `BlockReads.lean` reads a grid point's blocks off the arguments; `KernelRun.lean` reads the kernel's run;
  `RefSpec.lean` reads the reference's run. Here: the five claims.
-/
import proofs.«124156_j85950885527647_1_alg».proof.Defs
import proofs.«124156_j85950885527647_1_alg».proof.Proof.Gen.Kernel
import proofs.«124156_j85950885527647_1_alg».proof.Proof.Gen.Kernel.Frame
import proofs.«124156_j85950885527647_1_alg».proof.Proof.Gen.KernelIdeal
import proofs.«124156_j85950885527647_1_alg».proof.Proof.Gen.KernelIdeal.Frame
import proofs.«124156_j85950885527647_1_alg».proof.Proof.Gen.ReferenceIdeal
import proofs.«124156_j85950885527647_1_alg».proof.Proof.Gen.Pre_finite_inputs
import proofs.«124156_j85950885527647_1_alg».proof.Proof.Gen.KernelIdeal.Value
import proofs.«124156_j85950885527647_1_alg».proof.Proof.Gen.ReferenceIdeal.Run
import proofs.«124156_j85950885527647_1_alg».proof.Proof.Gen.ReferenceIdeal.Read
import proofs.«124156_j85950885527647_1_alg».proof.Proof.KernelRun
import proofs.«124156_j85950885527647_1_alg».proof.Proof.RefSpec
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference is host operations only: its generated run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

-- three results, each read through both programs' runs: more unfolding than the default budget
set_option maxHeartbeats 1000000 in
/-- From memories that agree on the arguments, the kernel's three result arrays (its run read row by row) and the
    reference's three results (its run read row by row) are the same row-wise cell and heads of the same arguments. -/
theorem algebraic : Cert.algebraic_KernelIdeal_ReferenceIdeal := by
  intro m ρ m' ρ' _ hagree
  refine ⟨fun c => Cert.Gru.Kernel.newState m c, fun c => Cert.Gru.Kernel.coarseOut m c, fun c => Cert.Gru.Kernel.fineOut m c,
    Cert.Gru.Kernel.run m ρ, ?_⟩
  refine (θ_run Cert.ReferenceIdeal.defs _ _).mono (fun _ h c => ?_) (Cert.ReferenceIdeal.Value.run (F := Ideal) m' ρ')
  obtain ⟨h0, h1, h2, hk⟩ := h c
  obtain ⟨a0, a1, a2, a3, a4, a5, a6, a7, a8, a9, a10, a11, a12, a13, a14, a15, a16, a17⟩ := hagree c
  refine ⟨h0.trans ?_, h1.trans ?_, h2.trans ?_, hk⟩
  · rw [Cert.ReferenceIdeal.Read.val_main_v50_eq]
    funext i
    refine (Cert.Gru.Ref.ref_hnew (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) i).trans ?_
    rw [a0, a1, a2, a3, a4, a5, a6, a7, a8, a9, a10, a11, a12, a13, a14, a15, a16, a17]
    rfl
  · rw [Cert.ReferenceIdeal.Read.val_main_v63_eq]
    funext i
    refine (Cert.Gru.Ref.ref_pct (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) i).trans ?_
    rw [a0, a1, a2, a3, a4, a5, a6, a7, a8, a9, a10, a11, a12, a13, a14, a15, a16, a17]
    rfl
  · rw [Cert.ReferenceIdeal.Read.val_main_v74_eq]
    funext i
    refine (Cert.Gru.Ref.ref_pft (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) i).trans ?_
    rw [a0, a1, a2, a3, a4, a5, a6, a7, a8, a9, a10, a11, a12, a13, a14, a15, a16, a17]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
